-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x16x16 : Shape := ⟨4, ![128, 1024, 16, 16]⟩
abbrev S128x2048x512 : Shape := ⟨3, ![128, 2048, 512]⟩
abbrev S1x16x2048 : Shape := ⟨3, ![1, 16, 2048]⟩
abbrev S2048x2048 : Shape := ⟨2, ![2048, 2048]⟩
abbrev S1024x4096 : Shape := ⟨2, ![1024, 4096]⟩
abbrev S_ : Shape := ⟨0, ![]⟩

class Facts : Prop where
  bcast_S_S128x1024x16x16 : S_.BroadcastsInDim S128x1024x16x16 (![] : Fin 0 → Fin S128x1024x16x16.rank)
  reducesTo_S128x1024x16x16_S_d0_1_2_3 : S128x1024x16x16.ReducesTo [0, 1, 2, 3] S_
  h_S_ : 0 < S_.numel
  bcast_S_S128x2048x512 : S_.BroadcastsInDim S128x2048x512 (![] : Fin 0 → Fin S128x2048x512.rank)
  reducesTo_S128x2048x512_S_d0_1_2 : S128x2048x512.ReducesTo [0, 1, 2] S_
  bcast_S_S1x16x2048 : S_.BroadcastsInDim S1x16x2048 (![] : Fin 0 → Fin S1x16x2048.rank)
  reducesTo_S1x16x2048_S_d0_1_2 : S1x16x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1024x4096 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  main_v23

def fn {F : FTy → Type} [FloatOps F] (main_arg0 : FVec F S128x1024x16x16 .f32) (main_arg1 : FVec F S128x2048x512 .f32) (main_arg2 : FVec F S1x16x2048 .f32) (main_arg3 : FVec F S2048x2048 .f32) (main_arg4 : FVec F S1024x4096 .f32) : IVec S_ 1 :=
  let main_v0 : FVec F S128x1024x16x16 .f32 := Host.absf main_arg0
  let main_cst : FVec F S_ .f32 := constant S_ .f32 0x7F800000#32
  let main_v1 : FVec F S128x1024x16x16 .f32 := broadcastInDim S128x1024x16x16 ![] bcast_S_S128x1024x16x16 main_cst
  let main_v2 : IVec S128x1024x16x16 1 := cmpf .olt main_v0 main_v1
  let main_c : IVec S_ 1 := constantI S_ 1 1#1
  let main_v3 : IVec S_ 1 := (fun x v => Host.reduce IntOp.andi x v reducesTo_S128x1024x16x16_S_d0_1_2_3 h_S_) main_v2 main_c
  let main_v4 : FVec F S128x2048x512 .f32 := Host.absf main_arg1
  let main_cst_0 : FVec F S_ .f32 := constant S_ .f32 0x7F800000#32
  let main_v5 : FVec F S128x2048x512 .f32 := broadcastInDim S128x2048x512 ![] bcast_S_S128x2048x512 main_cst_0
  let main_v6 : IVec S128x2048x512 1 := cmpf .olt main_v4 main_v5
  let main_c_1 : IVec S_ 1 := constantI S_ 1 1#1
  let main_v7 : IVec S_ 1 := (fun x v => Host.reduce IntOp.andi x v reducesTo_S128x2048x512_S_d0_1_2 h_S_) main_v6 main_c_1
  let main_v8 : IVec S_ 1 := andi main_v3 main_v7
  let main_v9 : FVec F S1x16x2048 .f32 := Host.absf main_arg2
  let main_cst_2 : FVec F S_ .f32 := constant S_ .f32 0x7F800000#32
  let main_v10 : FVec F S1x16x2048 .f32 := broadcastInDim S1x16x2048 ![] bcast_S_S1x16x2048 main_cst_2
  let main_v11 : IVec S1x16x2048 1 := cmpf .olt main_v9 main_v10
  let main_c_3 : IVec S_ 1 := constantI S_ 1 1#1
  let main_v12 : IVec S_ 1 := (fun x v => Host.reduce IntOp.andi x v reducesTo_S1x16x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S128x1024x16x16 : Shape := ⟨4, ![128, 1024, 16, 16]⟩
abbrev S128x2048x512 : Shape := ⟨3, ![128, 2048, 512]⟩
abbrev S1x16x2048 : Shape := ⟨3, ![1, 16, 2048]⟩
abbrev S2048x2048 : Shape := ⟨2, ![2048, 2048]⟩
abbrev S1024x4096 : Shape := ⟨2, ![1024, 4096]⟩
abbrev S16x2048 : Shape := ⟨2, ![16, 2048]⟩
abbrev S128x16x4096 : Shape := ⟨3, ![128, 16, 4096]⟩
abbrev S4x2048x512 : Shape := ⟨3, ![4, 2048, 512]⟩
abbrev S4x16x4096 : Shape := ⟨3, ![4, 16, 4096]⟩
abbrev S4x16x2048 : Shape := ⟨3, ![4, 16, 2048]⟩
abbrev S4x16x512 : Shape := ⟨3, ![4, 16, 512]⟩
abbrev S4x16 : Shape := ⟨2, ![4, 16]⟩
abbrev S4x16x1 : Shape := ⟨3, ![4, 16, 1]⟩
abbrev S2048x4096 : Shape := ⟨2, ![2048, 4096]⟩
abbrev S2048x1024 : Shape := ⟨2, ![2048, 1024]⟩
abbrev S512x4096 : Shape := ⟨2, ![512, 4096]⟩
abbrev S512x1024 : Shape := ⟨2, ![512, 1024]⟩
abbrev S128x16x1024 : Shape := ⟨3, ![128, 16, 1024]⟩
abbrev S128x1024x16 : Shape := ⟨3, ![128, 1024, 16]⟩
abbrev S128x1024x4x4 : Shape := ⟨4, ![128, 1024, 4, 4]⟩
abbrev S128x1024x4x4x4 : Shape := ⟨5, ![128, 1024, 4, 4, 4]⟩
abbrev S128x1024x16x4 : Shape := ⟨4, ![128, 1024, 16, 4]⟩
abbrev S128x1024x16x4x4 : Shape := ⟨5, ![128, 1024, 16, 4, 4]⟩
abbrev S128x2048x16x16 : Shape := ⟨4, ![128, 2048, 16, 16]⟩

abbrev nBuf : Space → Nat
  | .hbm => 17
  | .vmem => 13
  | .smem => 0
  | _ => 0

abbrev bufTy : (tb : Table) → Fin (tcTables nBuf tb) → BufTy
  | .hbm, ⟨0, _⟩ => ⟨S128x1024x16x16, .f32⟩
  | .hbm, ⟨1, _⟩ => ⟨S128x2048x512, .f32⟩
  | .hbm, ⟨2, _⟩ => ⟨S1x16x2048, .f32⟩
  | .hbm, ⟨3, _⟩ => ⟨S2048x2048, .f32⟩
  | .hbm, ⟨4, _⟩ => ⟨S1024x4096, .f32⟩
  | .hbm, ⟨5, _⟩ => ⟨S16x2048, .f32⟩
  | .hbm, ⟨6, _⟩ => ⟨S128x16x4096, .bf16⟩
  | .hbm, ⟨7, _⟩ => ⟨S2048x4096, .bf16⟩
  | .hbm, ⟨8, _⟩ => ⟨S2048x1024, .f32⟩
  | .hbm, ⟨9, _⟩ => ⟨S128x16x1024, .f32⟩
  | .hbm, ⟨10, _⟩ => ⟨S128x1024x16, .f32⟩
  | .hbm, ⟨11, _⟩ => ⟨S128x1024x4x4, .f32⟩
  | .hbm, ⟨12, _⟩ => ⟨S128x1024x4x4x4, .f32⟩
  | .hbm, ⟨13, _⟩ => ⟨S128x1024x16x4, .f32⟩
  | .hbm, ⟨14, _⟩ => ⟨S128x1024x16x4x4, .f32⟩
  | .hbm, ⟨15, _⟩ => ⟨S128x1024x16x16, .f32⟩
  | .hbm, ⟨16, _⟩ => ⟨S128x2048x16x16, .f32⟩
  | .local _ .vmem, ⟨0, _⟩ => ⟨S1x16x2048, .f32⟩
  | .local _ .vmem, ⟨1, _⟩ => ⟨S2048x2048, .f32⟩
  | .local _ .vmem, ⟨2, _⟩ => ⟨S16x2048, .f32⟩
  | .local _ .vmem, ⟨3, _⟩ => ⟨S4x2048x512, .f32⟩
  | .local _ .vmem, ⟨4, _⟩ => ⟨S4x2048x512, .f32⟩
  | .local _ .vmem, ⟨5, _⟩ => ⟨S16x2048, .f32⟩
  | .local _ .vmem, ⟨6, _⟩ => ⟨S4x16x4096, .bf16⟩
  | .local _ .vmem, ⟨7, _⟩ => ⟨S4x16x4096, .bf16⟩
  | .local _ .vmem, ⟨8, _⟩ => ⟨S512x4096, .bf16⟩
  | .local _ .vmem, ⟨9, _⟩ => ⟨S512x4096, .bf16⟩
  | .local _ .vmem, ⟨10, _⟩ => ⟨S1024x4096, .f32⟩
  | .local _ .vmem, ⟨11, _⟩ => ⟨S512x1024, .f32⟩
  | .local _ .vmem, ⟨12, _⟩ => ⟨S512x1024, .f32⟩
  | _, _ => ⟨S128x1024x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x16x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  inb_S4x2048x512_S4x2048x512_0_0_0 : ∀ a, (![0, 0, 0] : Fin 3 → Nat) a + S4x2048x512.size a ≤ S4x2048x512.size a
  h_S4x2048x512 : 0 < S4x2048x512.numel
  shapeCasts_S16x2048_S16x2048 : S16x2048.ShapeCasts S16x2048
  shapeCasts_S16x2048_S1x16x2048 : S16x2048.ShapeCasts S1x16x2048
  shapeCasts_S1x16x2048_S1x16x2048 : S1x16x2048.ShapeCasts S1x16x2048
  broadcasts_S1x16x2048_S4x16x2048 : S1x16x2048.Broadcasts S4x16x2048
  reduces_S4x16x512_S4x16 : S4x16x512.Reduces [2] S4x16
  shapeCasts_S4x16_S4x16x1 : S4x16.ShapeCasts S4x16x1
  broadcasts_S4x16x1_S4x16x512 : S4x16x1.Broadcasts S4x16x512
  concatenates_S4x16x2048_S4x16x2048_S4x16x4096_d2 : Shape.Concatenates [S4x16x2048, S4x16x2048] S4x16x4096 2
  inb_S4x16x4096_S4x16x4096_0_0_0 : ∀ a, (![0, 0, 0] : Fin 3 → Nat) a + S4x16x4096.size a ≤ S4x16x4096.size a
  h_S4x16x4096 : 0 < S4x16x4096.numel
  packedbf16_S4x16x4096_S4x16x4096_0_0_0 : (Rect.unit (s := S4x16x4096) ![0, 0, 0] S4x16x4096.size inb_S4x16x4096_S4x16x4096_0_0_0).PackedRows (EltTy.packing .bf16)
  shapeCasts_S128x16x4096_S2048x4096 : S128x16x4096.ShapeCasts S2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  inb_S512x1024_S512x1024_0_0 : ∀ a, (![0, 0] : Fin 2 → Nat) a + S512x1024.size a ≤ S512x1024.size a
  h_S512x1024 : 0 < S512x1024.numel
  shapeCasts_S2048x1024_S128x16x1024 : S2048x1024.ShapeCasts S128x16x1024
  transposes_S128x16x1024_S128x1024x16_0_2_1 : S128x16x1024.Transposes [0, 2, 1] S128x1024x16
  shapeCasts_S128x1024x16_S128x1024x4x4 : S128x1024x16.ShapeCasts S128x1024x4x4
  bcast_S128x1024x4x4_S128x1024x4x4x4_0_1_2_4 : S128x1024x4x4.BroadcastsInDim S128x1024x4x4x4 (![0, 1, 2, 4] : Fin 4 → Fin S128x1024x4x4x4.rank)
  shapeCasts_S128x1024x4x4x4_S128x1024x16x4 : S128x1024x4x4x4.ShapeCasts S128x1024x16x4
  bcast_S128x1024x16x4_S128x1024x16x4x4_0_1_2_3 : S128x1024x16x4.BroadcastsInDim S128x1024x16x4x4 (![0, 1, 2, 3] : Fin 4 → Fin S128x1024x16x4x4.rank)
  shapeCasts_S128x1024x16x4x4_S128x1024x16x16 : S128x1024x16x4x4.ShapeCasts S128x1024x16x16
  concatenates_S128x1024x16x16_S128x1024x16x16_S128x2048x16x16_d1 : Shape.Concatenates [S128x1024x16x16, S128x1024x16x16] S128x2048x16x16 1
  dot_S16x2048_S2048x2048_S16x2048_1_1_0_0_n_n_wf : DotDims.WF S16x2048 S2048x2048 S16x2048 [1] [1] [0] [0] [] []
  dot_S4x16x2048_S4x2048x512_S4x16x512_2_1_1_2_0_0_wf : DotDims.WF S4x16x2048 S4x2048x512 S4x16x512 [2] [1] [1] [2] [0] [0]
  dot_S4x16x512_S4x2048x512_S4x16x2048_2_2_1_1_0_0_wf : DotDims.WF S4x16x512 S4x2048x512 S4x16x2048 [2] [2] [1] [1] [0] [0]
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16x2048.size a ≤ S1x16x2048.size a
  hwx0_0 : ∀ i : grid0.Coords, EltTy.bits .f32 = 32 ∨ (Rect.block (s := S1x16x2048) S1x16x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2048x512.size a ≤ S128x2048x512.size a
  hwx1_0 : ∀ i : grid1.Coords, EltTy.bits .f32 = 32 ∨ (Rect.block (s := S128x2048x512) S4x2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2048.size a ≤ S16x2048.size a
  hwx1_1 : ∀ i : grid1.Coords, EltTy.bits .f32 = 32 ∨ (Rect.block (s := S16x2048) S16x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x16x4096.size a ≤ S128x16x4096.size a
  hwx1_2 : ∀ i : grid1.Coords, EltTy.bits .bf16 = 32 ∨ (Rect.block (s := S128x16x4096) S4x16x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S2048x4096.size a
  hwx2_0 : ∀ i : grid2.Coords, EltTy.bits .bf16 = 32 ∨ (Rect.block (s := S2048x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S1024x4096.size a
  hwx2_1 : ∀ i : grid2.Coords, EltTy.bits .f32 = 32 ∨ (Rect.block (s := S1024x4096) S1024x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x1024.size a
  hwx2_2 : ∀ i : grid2.Coords, EltTy.bits .f32 = 32 ∨ (Rect.block (s := S2048x1024) S512x1024.size (cc2_transform_2 i) (hinb2_2 i)).WholeWords (EltTy.packing .f32)

variable [Facts₀]

def dot_S16x2048_S2048x2048_S16x2048_1_1_0_0_n_n : DotDims S16x2048 S2048x2048 S16x2048 where
  lhsContracting := [1]
  rhsContracting := [1]
  lhsNonContracting := [0]
  rhsNonContracting := [0]
  lhsBatch := []
  rhsBatch := []
  wf := dot_S16x2048_S2048x2048_S16x2048_1_1_0_0_n_n_wf
def dot_S4x16x2048_S4x2048x512_S4x16x512_2_1_1_2_0_0 : DotDims S4x16x2048 S4x2048x512 S4x16x512 where
  lhsContracting := [2]
  rhsContracting := [1]
  lhsNonContracting := [1]
  rhsNonContracting := [2]
  lhsBatch := [0]
  rhsBatch := [0]
  wf := dot_S4x16x2048_S4x2048x512_S4x16x512_2_1_1_2_0_0_wf
def dot_S4x16x512_S4x2048x512_S4x16x2048_2_2_1_1_0_0 : DotDims S4x16x512 S4x2048x512 S4x16x2048 where
  lhsContracting := [2]
  rhsContracting := [2]
  lhsNonContracting := [1]
  rhsNonContracting := [1]
  lhsBatch := [0]
  rhsBatch := [0]
  wf := dot_S4x16x512_S4x2048x512_S4x16x2048_2_2_1_1_0_0_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg2) S1x16x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x16x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S128x1024x16x16 : Shape := ⟨4, ![128, 1024, 16, 16]⟩
abbrev S128x2048x512 : Shape := ⟨3, ![128, 2048, 512]⟩
abbrev S1x16x2048 : Shape := ⟨3, ![1, 16, 2048]⟩
abbrev S2048x2048 : Shape := ⟨2, ![2048, 2048]⟩
abbrev S1024x4096 : Shape := ⟨2, ![1024, 4096]⟩
abbrev S128x512x2048 : Shape := ⟨3, ![128, 512, 2048]⟩
abbrev S128x16x2048 : Shape := ⟨3, ![128, 16, 2048]⟩
abbrev S128x16x512 : Shape := ⟨3, ![128, 16, 512]⟩
abbrev S_ : Shape := ⟨0, ![]⟩
abbrev S128x16 : Shape := ⟨2, ![128, 16]⟩
abbrev S128x16x1 : Shape := ⟨3, ![128, 16, 1]⟩
abbrev S128x16x4096 : Shape := ⟨3, ![128, 16, 4096]⟩
abbrev S128x16x1024 : Shape := ⟨3, ![128, 16, 1024]⟩
abbrev S128x1024x16 : Shape := ⟨3, ![128, 1024, 16]⟩
abbrev S128x1024x4x4 : Shape := ⟨4, ![128, 1024, 4, 4]⟩
abbrev S16 : Shape := ⟨1, ![16]⟩
abbrev S16x1 : Shape := ⟨2, ![16, 1]⟩
abbrev S128x1024x16x4 : Shape := ⟨4, ![128, 1024, 16, 4]⟩
abbrev S128x2048x16x16 : Shape := ⟨4, ![128, 2048, 16, 16]⟩

abbrev nBuf : Space → Nat
  | .hbm => 92
  | .vmem => 0
  | .smem => 0
  | _ => 0

abbrev bufTy : (tb : Table) → Fin (tcTables nBuf tb) → BufTy
  | .hbm, ⟨0, _⟩ => ⟨S128x1024x16x16, .f32⟩
  | .hbm, ⟨1, _⟩ => ⟨S128x2048x512, .f32⟩
  | .hbm, ⟨2, _⟩ => ⟨S1x16x2048, .f32⟩
  | .hbm, ⟨3, _⟩ => ⟨S2048x2048, .f32⟩
  | .hbm, ⟨4, _⟩ => ⟨S1024x4096, .f32⟩
  | .hbm, ⟨5, _⟩ => ⟨S128x512x2048, .f32⟩
  | .hbm, ⟨6, _⟩ => ⟨S128x16x2048, .f32⟩
  | .hbm, ⟨7, _⟩ => ⟨S128x16x2048, .f32⟩
  | .hbm, ⟨8, _⟩ => ⟨S128x16x512, .f32⟩
  | .hbm, ⟨9, _⟩ => ⟨S_, .f32⟩
  | .hbm, ⟨10, _⟩ => ⟨S128x16, .f32⟩
  | .hbm, ⟨11, _⟩ => ⟨S_, .f32⟩
  | .hbm, ⟨12, _⟩ => ⟨S128x16, .f32⟩
  | .hbm, ⟨13, _⟩ => ⟨S128x16, .f32⟩
  | .hbm, ⟨14, _⟩ => ⟨S128x16x1, .f32⟩
  | .hbm, ⟨15, _⟩ => ⟨S128x16x512, .f32⟩
  | .hbm, ⟨16, _⟩ => ⟨S128x16x512, .f32⟩
  | .hbm, ⟨17, _⟩ => ⟨S128x16x512, .f32⟩
  | .hbm, ⟨18, _⟩ => ⟨S_, .f32⟩
  | .hbm, ⟨19, _⟩ => ⟨S128x16, .f32⟩
  | .hbm, ⟨20, _⟩ => ⟨S128x16x1, .f32⟩
  | .hbm, ⟨21, _⟩ => ⟨S128x16x512, .f32⟩
  | .hbm, ⟨22, _⟩ => ⟨S128x16x512, .f32⟩
  | .hbm, ⟨23, _⟩ => ⟨S128x16x2048, .f32⟩
  | .hbm, ⟨24, _⟩ => ⟨S128x16x4096, .f32⟩
  | .hbm, ⟨25, _⟩ => ⟨S128x16x1024, .f32⟩
  | .hbm, ⟨26, _⟩ => ⟨S128x16x1024, .f32⟩
  | .hbm, ⟨27, _⟩ => ⟨S128x1024x16, .f32⟩
  | .hbm, ⟨28, _⟩ => ⟨S128x1024x4x4, .f32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S16, .i32⟩
  | .hbm, ⟨42, _⟩ => ⟨S16, .i32⟩
  | .hbm, ⟨43, _⟩ => ⟨S_, .i32⟩
  | .hbm, ⟨44, _⟩ => ⟨S16, .i32⟩
  | .hbm, ⟨45, _⟩ => ⟨S16, .i1⟩
  | .hbm, ⟨46, _⟩ => ⟨S16, .i1⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S16, .i32⟩
  | .hbm, ⟨54, _⟩ => ⟨S16, .i32⟩
  | .hbm, ⟨55, _⟩ => ⟨S_, .i32⟩
  | .hbm, ⟨56, _⟩ => ⟨S_, .i32⟩
  | .hbm, ⟨57, _⟩ => ⟨S16, .i32⟩
  | .hbm, ⟨58, _⟩ => ⟨S16, .i32⟩
  | .hbm, ⟨59, _⟩ => ⟨S16, .i32⟩
  | .hbm, ⟨60, _⟩ => ⟨S_, .i32⟩
  | .hbm, ⟨61, _⟩ => ⟨S16, .i32⟩
  | .hbm, ⟨62, _⟩ => ⟨S16, .i1⟩
  | .hbm, ⟨63, _⟩ => ⟨S16, .i32⟩
  | .hbm, ⟨64, _⟩ => ⟨S16, .i32⟩
  | .hbm, ⟨65, _⟩ => ⟨S_, .i32⟩
  | .hbm, ⟨66, _⟩ => ⟨S16, .i32⟩
  | .hbm, ⟨67, _⟩ => ⟨S16, .i1⟩
  | .hbm, ⟨68, _⟩ => ⟨S16, .i1⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S16, .i32⟩
  | .hbm, ⟨73, _⟩ => ⟨S_, .i32⟩
  | .hbm, ⟨74, _⟩ => ⟨S16, .i32⟩
  | .hbm, ⟨75, _⟩ => ⟨S16, .i1⟩
  | .hbm, ⟨76, _⟩ => ⟨S_, .i32⟩
  | .hbm, ⟨77, _⟩ => ⟨S16, .i32⟩
  | .hbm, ⟨78, _⟩ => ⟨S16, .i32⟩
  | .hbm, ⟨79, _⟩ => ⟨S16, .i32⟩
  | .hbm, ⟨80, _⟩ => ⟨S16x1, .i32⟩
  | .hbm, ⟨81, _⟩ => ⟨S128x1024x16x4, .f32⟩
  | .hbm, ⟨82, _⟩ => ⟨S_, .i32⟩
  | .hbm, ⟨83, _⟩ => ⟨S16, .i32⟩
  | .hbm, ⟨84, _⟩ => ⟨S16, .i1⟩
  | .hbm, ⟨85, _⟩ => ⟨S_, .i32⟩
  | .hbm, ⟨86, _⟩ => ⟨S16, .i32⟩
  | .hbm, ⟨87, _⟩ => ⟨S16, .i32⟩
  | .hbm, ⟨88, _⟩ => ⟨S16, .i32⟩
  | .hbm, ⟨89, _⟩ => ⟨S16x1, .i32⟩
  | .hbm, ⟨90, _⟩ => ⟨S128x1024x16x16, .f32⟩
  | .hbm, ⟨91, _⟩ => ⟨S128x2048x16x16, .f32⟩
  | _, _ => ⟨S128x1024x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v28 : Ref sig .tc := ⟨.hbm, 72, rfl⟩
abbrev main_c_5 : Ref sig .tc := ⟨.hbm, 73, rfl⟩
abbrev main_v29 : Ref sig .tc := ⟨.hbm, 74, rfl⟩
abbrev main_v30 : Ref sig .tc := ⟨.hbm, 75, rfl⟩
abbrev main_c_6 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_c_7 : Ref sig .tc := ⟨.hbm, 82, rfl⟩
abbrev main_v36 : Ref sig .tc := ⟨.hbm, 83, rfl⟩
abbrev main_v37 : Ref sig .tc := ⟨.hbm, 84, rfl⟩
abbrev main_c_8 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩

abbrev nD : Nat := 1
abbrev τ : Topo := Topo.v7x

variable {F : FTy → Type} [FloatOps F]

class Facts₀ : Prop where
  transposes_S128x2048x512_S128x512x2048_0_2_1 : S128x2048x512.Transposes [0, 2, 1] S128x512x2048
  bcast_S1x16x2048_S128x16x2048_0_1_2 : S1x16x2048.BroadcastsInDim S128x16x2048 (![0, 1, 2] : Fin 3 → Fin S128x16x2048.rank)
  reducesTo_S128x16x512_S128x16_d2 : S128x16x512.ReducesTo [2] S128x16
  h_S_ : 0 < S_.numel
  bcast_S_S128x16 : S_.BroadcastsInDim S128x16 (![] : Fin 0 → Fin S128x16.rank)
  bcast_S128x16_S128x16x1_0_1 : S128x16.BroadcastsInDim S128x16x1 (![0, 1] : Fin 2 → Fin S128x16x1.rank)
  bcast_S128x16x1_S128x16x512_0_1_2 : S128x16x1.BroadcastsInDim S128x16x512 (![0, 1, 2] : Fin 3 → Fin S128x16x512.rank)
  concatenates_S128x16x2048_S128x16x2048_S128x16x4096_d2 : Shape.Concatenates [S128x16x2048, S128x16x2048] S128x16x4096 2
  transposes_S128x16x1024_S128x1024x16_0_2_1 : S128x16x1024.Transposes [0, 2, 1] S128x1024x16
  shapeCasts_S128x1024x16_S128x1024x4x4 : S128x1024x16.ShapeCasts S128x1024x4x4
  bcast_S_S16 : S_.BroadcastsInDim S16 (![] : Fin 0 → Fin S16.rank)
  bcast_S16_S16x1_0 : S16.BroadcastsInDim S16x1 (![0] : Fin 1 → Fin S16x1.rank)
  concatenates_S128x1024x16x16_S128x1024x16x16_S128x2048x16x16_d1 : Shape.Concatenates [S128x1024x16x16, S128x1024x16x16] S128x2048x16x16 1
  dot_S128x16x2048_S2048x2048_S128x16x2048_2_1_01_0_n_n_wf : DotDims.WF S128x16x2048 S2048x2048 S128x16x2048 [2] [1] [0, 1] [0] [] []
  dot_S128x16x2048_S128x512x2048_S128x16x512_2_2_1_1_0_0_wf : DotDims.WF S128x16x2048 S128x512x2048 S128x16x512 [2] [2] [1] [1] [0] [0]
  dot_S128x16x512_S128x512x2048_S128x16x2048_2_1_1_2_0_0_wf : DotDims.WF S128x16x512 S128x512x2048 S128x16x2048 [2] [1] [1] [2] [0] [0]
  dot_S128x16x4096_S1024x4096_S128x16x1024_2_1_01_0_n_n_wf : DotDims.WF S128x16x4096 S1024x4096 S128x16x1024 [2] [1] [0, 1] [0] [] []
  gather_S128x1024x4x4_S16x1_S128x1024x16x4_013_2_n_n_2_1_128102414_wf : GatherDims.WF S128x1024x4x4 S16x1 S128x1024x16x4 [0, 1, 3] [2] [] [2] [] 1 ![128, 1024, 1, 4]
  gather_S128x1024x16x4_S16x1_S128x1024x16x16_012_3_n_n_3_1_1281024161_wf : GatherDims.WF S128x1024x16x4 S16x1 S128x1024x16x16 [0, 1, 2] [3] [] [3] [] 1 ![128, 1024, 16, 1]

variable [Facts₀]

def dot_S128x16x2048_S2048x2048_S128x16x2048_2_1_01_0_n_n : DotDims S128x16x2048 S2048x2048 S128x16x2048 where
  lhsContracting := [2]
  rhsContracting := [1]
  lhsNonContracting := [0, 1]
  rhsNonContracting := [0]
  lhsBatch := []
  rhsBatch := []
  wf := dot_S128x16x2048_S2048x2048_S128x16x2048_2_1_01_0_n_n_wf
def dot_S128x16x2048_S128x512x2048_S128x16x512_2_2_1_1_0_0 : DotDims S128x16x2048 S128x512x2048 S128x16x512 where
  lhsContracting := [2]
  rhsContracting := [2]
  lhsNonContracting := [1]
  rhsNonContracting := [1]
  lhsBatch := [0]
  rhsBatch := [0]
  wf := dot_S128x16x2048_S128x512x2048_S128x16x512_2_2_1_1_0_0_wf
def dot_S128x16x512_S128x512x2048_S128x16x2048_2_1_1_2_0_0 : DotDims S128x16x512 S128x512x2048 S128x16x2048 where
  lhsContracting := [2]
  rhsContracting := [1]
  lhsNonContracting := [1]
  rhsNonContracting := [2]
  lhsBatch := [0]
  rhsBatch := [0]
  wf := dot_S128x16x512_S128x512x2048_S128x16x2048_2_1_1_2_0_0_wf
def dot_S128x16x4096_S1024x4096_S128x16x1024_2_1_01_0_n_n : DotDims S128x16x4096 S1024x4096 S128x16x1024 where
  lhsContracting := [2]
  rhsContracting := [1]
  lhsNonContracting := [0, 1]
  rhsNonContracting := [0]
  lhsBatch := []
  rhsBatch := []
  wf := dot_S128x16x4096_S1024x4096_S128x16x1024_2_1_01_0_n_n_wf
def gather_S128x1024x4x4_S16x1_S128x1024x16x4_013_2_n_n_2_1_128102414 : GatherDims S128x1024x4x4 S16x1 S128x1024x16x4 where
  offsetDims := [0, 1, 3]
  collapsedSliceDims := [2]
  operandBatchingDims := []
  startIndicesBatchingDims := []
  startIndexMap := [2]
  indexVectorDim := 1
  sliceSizes := ![128, 1024, 1, 4]
  wf := gather_S128x1024x4x4_S16x1_S128x1024x16x4_013_2_n_n_2_1_128102414_wf
def gather_S128x1024x16x4_S16x1_S128x1024x16x16_012_3_n_n_3_1_1281024161 : GatherDims S128x1024x16x4 S16x1 S128x1024x16x16 where
  offsetDims := [0, 1, 2]
  collapsedSliceDims := [3]
  operandBatchingDims := []
  startIndicesBatchingDims := []
  startIndexMap := [3]
  indexVectorDim := 1
  sliceSizes := ![128, 1024, 16, 1]
  wf := gather_S128x1024x16x4_S16x1_S128x1024x16x16_012_3_n_n_3_1_1281024161_wf

class Facts : Prop extends Facts₀ where

variable [Facts]
-- ==== Proof.Spec.lean ====
/-
  The mathematics both programs compute, as plain functions of coordinates over the extended reals.

  One learned query (16 rows of 2048) is projected once: q[r, e] = Σ_d query[r, d] · W_in[e, d].
  For one batch element with context ctx (2048 × 512): the scores s[r, l] = Σ_d q[r, d] · ctx[d, l];
  each row of scores goes through the softmax, taken as both programs take it: the row's maximum is
  max(−∞, the fold of max from −∞ over the row), the shifted exponentials e[l] = exp(s[l] − max), and the
  weights e[l] / Σ_l' e[l']. The mix is m[r, d] = Σ_l weights[r, l] · ctx[d, l]; the combined row of 4096 is
  the mix (first 2048 entries) followed by q's row (last 2048). The output entry is
  tanh(Σ_e combined[r, e] · W_out[o, e]). The result array has 2048 channels over a 16 × 16 map: the first
  1024 channels are the input feature map; channel 1024 + o at pixel (h, w) is the output entry of query row
  (h / 4) · 4 + w / 4 (the 4 × 4 map of query rows, each repeated over a 4 × 4 patch of pixels).
-/
import Idealize.ShloMosaic.PureOps.Ideal
import Idealize.ShloMosaic.PureOps.Ideal.Laws

noncomputable section

namespace Cert.Spec

open Idealize.ShloMosaic

/-- The extended real the f32 word of −∞ denotes; both programs start their row maximum from this word. -/
abbrev negInf : EReal := Ideal.ofBits .f32 0xFF800000#32

/-- The projected query: q[r, e] = Σ_d query[r, d] · W_in[e, d]. -/
def qproj (query : Fin 16 → Fin 2048 → EReal) (win : Fin 2048 → Fin 2048 → EReal) (r : Fin 16) (e : Fin 2048) : EReal :=
  ∑ d : Fin 2048, query r d * win e d

/-- One batch element's scores: s[r, l] = Σ_d q[r, d] · ctx[d, l]. -/
def scores (q : Fin 16 → Fin 2048 → EReal) (ctx : Fin 2048 → Fin 512 → EReal) (r : Fin 16) (l : Fin 512) : EReal :=
  ∑ d : Fin 2048, q r d * ctx d l

/-- A row's maximum as both programs take it: the fold of max from −∞, joined once more with −∞. -/
def rowMax (s : Fin 512 → EReal) : EReal :=
  max negInf ((Finset.univ : Finset (Fin 512)).fold max negInf s)

/-- The shifted exponential of a row's entry. -/
def expd (s : Fin 512 → EReal) (l : Fin 512) : EReal := Ideal.exp (s l - rowMax s)

/-- The softmax of a row: each shifted exponential over their sum. -/
def softmax (s : Fin 512 → EReal) (l : Fin 512) : EReal :=
  Ideal.div (expd s l) (∑ l' : Fin 512, expd s l')

/-- The mix: m[r, d] = Σ_l w[r, l] · ctx[d, l]. -/
def mix (w : Fin 16 → Fin 512 → EReal) (ctx : Fin 2048 → Fin 512 → EReal) (r : Fin 16) (d : Fin 2048) : EReal :=
  ∑ l : Fin 512, w r l * ctx d l

/-- One batch element's combined row: the mix of the softmaxed scores, then q's row. -/
def combined (q : Fin 16 → Fin 2048 → EReal) (ctx : Fin 2048 → Fin 512 → EReal) (r : Fin 16) (e : Fin 4096) : EReal :=
  if h : e.val < 2048 then mix (fun r' l => softmax (scores q ctx r') l) ctx r ⟨e.val, h⟩
  else q r ⟨e.val - 2048, by have := e.isLt; omega⟩

/-- The output entry: tanh of the combined row against W_out's row o. -/
def proj (comb : Fin 4096 → EReal) (wout : Fin 1024 → Fin 4096 → EReal) (o : Fin 1024) : EReal :=
  Ideal.tanh (∑ e : Fin 4096, comb e * wout o e)

/-- The query row a pixel (h, w) of the 16 × 16 map shows: the 4 × 4 map of rows, each over a 4 × 4 patch. -/
def pixelRow (h w : Fin 16) : Fin 16 := ⟨(h.val / 4) * 4 + w.val / 4, by have := h.isLt; have := w.isLt; omega⟩

/-- The whole result at batch n, channel ch, pixel (h, w). -/
def result (cat : Fin 128 → Fin 1024 → Fin 16 → Fin 16 → EReal) (ctx : Fin 128 → Fin 2048 → Fin 512 → EReal)
    (query : Fin 16 → Fin 2048 → EReal) (win : Fin 2048 → Fin 2048 → EReal) (wout : Fin 1024 → Fin 4096 → EReal)
    (n : Fin 128) (ch : Fin 2048) (h w : Fin 16) : EReal :=
  if hc : ch.val < 1024 then cat n ⟨ch.val, hc⟩ h w
  else proj (combined (qproj query win) (ctx n) (pixelRow h w)) wout ⟨ch.val - 1024, by have := ch.isLt; omega⟩

end Cert.Spec

end
-- ==== Proof.KArrays.lean ====
/-
  The kernel program's arrays at their literal types, over any contents V of the TensorCore's buffers, and
  the array each of the three pipelines leaves in its output window after its last point.
-/
import proofs.«166487_j65060164600030_1_alg».proof.Proof.Gen.KernelIdeal.Frame
import proofs.«166487_j65060164600030_1_alg».proof.Proof.Spec
import Idealize.ShloMosaic.Lib.ValueIdx
import Idealize.ShloMosaic.Lib.Pipeline.Value

noncomputable section

namespace Cert.KernelIdeal.KV

open Idealize.ShloMosaic Idealize.ShloMosaic.TcCoe Idealize.SL.Sem
open Cert.KernelIdeal Cert.KernelIdeal.Gen

/-- Contents of every TensorCore buffer on every core, at the ideal values. -/
abbrev Vals : Type := (c : Dev nD) → (b : Ref sig .tc) → Buf (Elt Ideal) ((c : Thread nD τ).loc b)

variable (V : Vals)

/-- The input feature map. -/
abbrev catA (c : Dev nD) : S128x1024x16x16.Idx → EReal := V c main_arg0
/-- The context. -/
abbrev ctxA (c : Dev nD) : S128x2048x512.Idx → EReal := V c main_arg1
/-- The learned query. -/
abbrev queryA (c : Dev nD) : S1x16x2048.Idx → EReal := V c main_arg2
/-- The query projection's weights. -/
abbrev winA (c : Dev nD) : S2048x2048.Idx → EReal := V c main_arg3
/-- The output projection's weights. -/
abbrev woutA (c : Dev nD) : S1024x4096.Idx → EReal := V c main_arg4
/-- The projected query (the first pipeline's output array). -/
abbrev qA (c : Dev nD) : S16x2048.Idx → EReal := V c main_v0
/-- The combined rows (the second pipeline's output array). -/
abbrev combA (c : Dev nD) : S128x16x4096.Idx → EReal := V c main_v1
/-- The combined rows with batch and query row flattened. -/
abbrev combFlatA (c : Dev nD) : S2048x4096.Idx → EReal := V c main_v2
/-- The output entries, flattened (the third pipeline's output array). -/
abbrev outFlatA (c : Dev nD) : S2048x1024.Idx → EReal := V c main_v3

/-- What the first pipeline leaves in the projected query's array, entered at contents V. -/
def out0 (c : Dev nD) : S16x2048.Idx → EReal := (dat0 (F := Ideal) V c).arrAt 2 cfg0.N
/-- What the second pipeline leaves in the combined rows' array, entered at contents V. -/
def out1 (c : Dev nD) : S128x16x4096.Idx → EReal := (dat1 (F := Ideal) V c).arrAt 2 cfg1.N
/-- What the third pipeline leaves in the flattened output's array, entered at contents V. -/
def out2 (c : Dev nD) : S2048x1024.Idx → EReal := (dat2 (F := Ideal) V c).arrAt 2 cfg2.N

end Cert.KernelIdeal.KV

end
-- ==== Proof.K0.lean ====
/-
  The first pipeline (one grid point; every window's block is its whole array) leaves the projected query:
  entry (r, e) of its output array is Σ_d query[0, r, d] · W_in[e, d].
-/
import proofs.«166487_j65060164600030_1_alg».proof.Proof.KArrays
import Idealize.ShloMosaic.PureOps.Ideal.Laws

set_option maxRecDepth 16384

noncomputable section

namespace Cert.KernelIdeal.K0

open Idealize.ShloMosaic Idealize.ShloMosaic.TcCoe Idealize.SL.Sem Idealize.ShloMosaic.ValueIdx
open Cert.KernelIdeal Cert.KernelIdeal.Gen Cert.KernelIdeal.KV

variable (V : Vals)

/-! ## The body's stored value at an index -/

/-- The projection's dimension numbers: rows of the query against rows of the weights, both contracted on their last axis. -/
abbrev DQ : DotDims S16x2048 S2048x2048 S16x2048 := dot_S16x2048_S2048x2048_S16x2048_1_1_0_0_n_n

theorem lhsDQ_0 (j : S16x2048.Idx) (k : DQ.contr.Idx) : (DQ.lhsIdx j k 0 : ℕ) = j 0 := by
  simp [DotDims.lhsIdx, DQ, dot_S16x2048_S2048x2048_S16x2048_1_1_0_0_n_n]; rfl
theorem lhsDQ_1 (j : S16x2048.Idx) (k : DQ.contr.Idx) : (DQ.lhsIdx j k 1 : ℕ) = k ⟨0, by decide⟩ := by
  simp [DotDims.lhsIdx, DQ, dot_S16x2048_S2048x2048_S16x2048_1_1_0_0_n_n]; rfl
theorem rhsDQ_0 (j : S16x2048.Idx) (k : DQ.contr.Idx) : (DQ.rhsIdx j k 0 : ℕ) = j 1 := by
  simp [DotDims.rhsIdx, DQ, dot_S16x2048_S2048x2048_S16x2048_1_1_0_0_n_n]; rfl
theorem rhsDQ_1 (j : S16x2048.Idx) (k : DQ.contr.Idx) : (DQ.rhsIdx j k 1 : ℕ) = k ⟨0, by decide⟩ := by
  simp [DotDims.rhsIdx, DQ, dot_S16x2048_S2048x2048_S16x2048_1_1_0_0_n_n]; rfl

theorem contrDQ_rank : DQ.contr.rank = 1 := by decide
theorem contrDQ_size : DQ.contr.size ⟨0, by decide⟩ = 2048 := by decide

/-- The contraction's index is its one coordinate, the feature d. -/
abbrev eDQ : DQ.contr.Idx ≃ Fin 2048 := contrEquiv1 DQ 2048 contrDQ_rank contrDQ_size

/-- The body's stored value at (r, e): the query's row r against the weights' row e. -/
theorem pay_apply (x0 : S1x16x2048.Idx → EReal) (x1 : S2048x2048.Idx → EReal) (r : Fin 16) (e : Fin 2048) :
    k0_pay1 (F := Ideal) x0 x1 (ix2 r e) = ∑ d : Fin 2048, x0 (ix3 (0 : Fin 1) r d) * x1 (ix2 e d) := by
  unfold k0_pay1
  refine (Ideal.matmul_constant_zero_apply DQ none _ _ (ix2 r e)).trans ?_
  rw [← Equiv.sum_comp eDQ.symm]
  refine Finset.sum_congr rfl fun d _ => ?_
  have hk : ((eDQ.symm d) ⟨0, by decide⟩ : ℕ) = d.val := contrEquiv1_symm_val DQ 2048 contrDQ_rank contrDQ_size d
  congr 1
  · refine (shapeCast_dropUnit_apply ![16, 2048] x0 shapeCasts_S1x16x2048_S16x2048 _).trans ?_
    refine congrArg x0 (funext fun a => Fin.ext ?_)
    match a with
    | ⟨0, _⟩ => rfl
    | ⟨1, _⟩ => exact lhsDQ_0 (ix2 r e) (eDQ.symm d)
    | ⟨2, _⟩ => exact (lhsDQ_1 (ix2 r e) (eDQ.symm d)).trans hk
  · show x1 (DQ.rhsIdx (ix2 r e) (eDQ.symm d)) = x1 (ix2 e d)
    refine congrArg x1 (funext fun a => Fin.ext ?_)
    match a with
    | ⟨0, _⟩ => exact rhsDQ_0 (ix2 r e) (eDQ.symm d)
    | ⟨1, _⟩ => exact (rhsDQ_1 (ix2 r e) (eDQ.symm d)).trans hk

/-! ## From the block to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block index is zero on every axis at every point of the grid: each block is its whole array. -/
theorem idx_zero : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The query's block at a point is the query's array. -/
theorem queryBlk_apply (c : Dev nD) (t : Fin cfg0.N) (y : S1x16x2048.Idx) :
    (iblk0 (F := Ideal) V c 0 t : S1x16x2048.Idx → EReal) y = queryA V c y := by
  obtain ⟨e0, e1, e2, -⟩ := idx_zero t
  unfold iblk0
  rw [View.read_apply]
  show V c main_arg2 _ = V c main_arg2 y
  congr 1
  funext a
  apply Fin.ext
  match a with
  | ⟨0, _⟩ => show win0_0.index t (0 : Fin 3) * 1 + 1 * (y 0).val = (y 0).val; rw [e0]; omega
  | ⟨1, _⟩ => show win0_0.index t (1 : Fin 3) * 16 + 1 * (y 1).val = (y 1).val; rw [e1]; omega
  | ⟨2, _⟩ => show win0_0.index t (2 : Fin 3) * 2048 + 1 * (y 2).val = (y 2).val; rw [e2]; omega

/-- The weights' block at a point is the weights' array. -/
theorem winBlk_apply (c : Dev nD) (t : Fin cfg0.N) (y : S2048x2048.Idx) :
    (iblk0 (F := Ideal) V c 1 t : S2048x2048.Idx → EReal) y = winA V c y := by
  obtain ⟨-, -, -, e0, e1, -⟩ := idx_zero t
  unfold iblk0
  rw [View.read_apply]
  show V c main_arg3 _ = V c main_arg3 y
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

/-- The projected query as one function of the query's and the weights' arrays. -/
def projA (c : Dev nD) : S16x2048.Idx → EReal := fun i =>
  Cert.Spec.qproj (fun r' d => queryA V c (ix3 (0 : Fin 1) r' d)) (fun e' d => winA V c (ix2 e' d)) (i 0) (i 1)

/-- What the body stores at j, from blocks that are the arrays A0 and A1, is the projection at the array index i under j. -/
theorem point_apply (x0 A0 : S1x16x2048.Idx → EReal) (x1 A1 : S2048x2048.Idx → EReal)
    (h0 : ∀ y, x0 y = A0 y) (h1 : ∀ y, x1 y = A1 y) (j i : S16x2048.Idx)
    (hi0 : (i 0).val = (j 0).val) (hi1 : (i 1).val = (j 1).val) :
    k0_pay1 (F := Ideal) x0 x1 j
      = Cert.Spec.qproj (fun r' d => A0 (ix3 (0 : Fin 1) r' d)) (fun e' d => A1 (ix2 e' d)) (i 0) (i 1) := by
  obtain rfl : x0 = A0 := funext h0
  obtain rfl : x1 = A1 := funext h1
  obtain rfl : i = j := Shape.idx_ext₂ hi0 hi1
  unfold Cert.Spec.qproj
  exact (congrArg (k0_pay1 (F := Ideal) x0 x1) (eq_ix2 i)).trans (pay_apply x0 x1 (i 0) (i 1))

/-- What a point writes back is its block of the projection. -/
theorem flushed_eq (c : Dev nD) (t : Fin cfg0.N) :
    (dat0 (F := Ideal) V c).flushed 2 t = ((cfg0.win 2).blk t).view.read (Elt Ideal) (projA V c) := by
  show (cfg0.win 2).cut (grid0.coords t) ((dat0 V c).after 2 t) = _
  rw [after0_2]
  unfold out0_2
  rw [View.canon_unit_zero hz2]
  simp only [View.ld_unit_zero (S := S1x16x2048) hz3, View.ld_unit_zero (S := S2048x2048) hz2]
  obtain ⟨-, -, -, -, -, e0, e1⟩ := idx_zero t
  funext j
  show k0_pay1 (F := Ideal) (iblk0 V c 0 t) (iblk0 V c 1 t) j = projA V c (((cfg0.win 2).blk t).view.emb j)
  refine point_apply (iblk0 V c 0 t) (queryA V c) (iblk0 V c 1 t) (winA V c) (queryBlk_apply V c t) (winBlk_apply V c t) j (((cfg0.win 2).blk t).view.emb j) ?_ ?_
  · show win0_2.index t (0 : Fin 2) * 16 + 1 * (j 0).val = (j 0).val
    rw [e0]; omega
  · show win0_2.index t (1 : Fin 2) * 2048 + 1 * (j 1).val = (j 1).val
    rw [e1]; omega

/-- An index of the array is in a point's block iff each coordinate is in the block's range on its axis. -/
theorem mem_blk (t : Fin cfg0.N) (i : S16x2048.Idx) :
    i ∈ ((cfg0.win 2).blk t).view.set ↔ ∀ a : Fin 2, win0_2.index t a * S16x2048.size a ≤ (i a).val ∧ (i a).val < win0_2.index t a * S16x2048.size a + S16x2048.size a := by
  show i ∈ ((View.whole main_v0).slice (win0_2.rect t)).set ↔ _
  rw [View.set_slice_whole, Rect.mem_set_unit]
  exact Iff.rfl

/-- The one point's block covers the array. -/
theorem covered (i : S16x2048.Idx) :
    ∃ t : Fin cfg0.N, (cfg0.win 2).flush t = true ∧ i ∈ ((cfg0.win 2).blk t).view.set := by
  refine ⟨t0_0, flush0_2 t0_0, ?_⟩
  rw [mem_blk]
  obtain ⟨-, -, -, -, -, e0, e1⟩ := idx_zero t0_0
  have h0 : (i 0).val < 16 := (i 0).isLt
  have h1 : (i 1).val < 2048 := (i 1).isLt
  intro a
  match a with
  | ⟨0, _⟩ => show win0_2.index t0_0 (0 : Fin 2) * 16 ≤ (i 0).val ∧ (i 0).val < win0_2.index t0_0 (0 : Fin 2) * 16 + 16; rw [e0]; omega
  | ⟨1, _⟩ => show win0_2.index t0_0 (1 : Fin 2) * 2048 ≤ (i 1).val ∧ (i 1).val < win0_2.index t0_0 (1 : Fin 2) * 2048 + 2048; rw [e1]; omega

/-- The array the first pipeline leaves is the projection. -/
theorem out0_eq (c : Dev nD) : out0 V c = projA V c := by
  unfold out0
  exact (dat0 (F := Ideal) V c).arrAt_eq_of_cover 2 (projA V c) (fun t _ => flushed_eq V c t) covered

/-- The array the first pipeline leaves, read at (r, e). -/
theorem out0_apply (c : Dev nD) (r : Fin 16) (e : Fin 2048) :
    out0 V c (ix2 r e)
      = Cert.Spec.qproj (fun r' d => queryA V c (ix3 (0 : Fin 1) r' d)) (fun e' d => winA V c (ix2 e' d)) r e := by
  exact congrFun (out0_eq V c) (ix2 r e)

end Cert.KernelIdeal.K0

end
-- ==== Proof.K1Pay.lean ====
/-
  The attention body's one stored value, read at an entry of its block of four batch elements. The body contracts
  the projected query (broadcast over the four batch elements) with the block's context over the feature axis,
  takes each row through the softmax (row maximum from −∞ joined with −∞, shifted exponentials, their row sum,
  the quotient), contracts the weights with the context over the position axis, and appends the projected
  query's row; the changes of float format in between are the identity at the ideal values.
-/
import proofs.«166487_j65060164600030_1_alg».proof.KernelIdeal
import proofs.«166487_j65060164600030_1_alg».proof.Proof.Gen.KernelIdeal.Skeleton
import proofs.«166487_j65060164600030_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.K1Pay

open Idealize.ShloMosaic Idealize.SL.Sem Idealize.ShloMosaic.ValueIdx
open Cert.KernelIdeal Cert.KernelIdeal.Gen

/-- The context block under its change of float format. -/
def sC (x0 : S4x2048x512.Idx → EReal) : FVec Ideal S4x2048x512 .bf16 := truncf .bf16 x0 bitsLt_bf16_f32

/-- The query as the body reads it first: the same-shape cast. -/
def sQ0 (x1 : S16x2048.Idx → EReal) : FVec Ideal S16x2048 .f32 := shapeCast S16x2048 x1 shapeCasts_S16x2048_S16x2048

/-- The query broadcast over the four batch elements, in the narrow format. -/
def sQ (x1 : S16x2048.Idx → EReal) : FVec Ideal S4x16x2048 .bf16 :=
  broadcastTo S4x16x2048 (shapeCast S1x16x2048 (shapeCast S1x16x2048 (truncf .bf16 (sQ0 x1) bitsLt_bf16_f32)
    shapeCasts_S16x2048_S1x16x2048) shapeCasts_S1x16x2048_S1x16x2048) broadcasts_S1x16x2048_S4x16x2048

/-- The query broadcast over the four batch elements, in the wide format. -/
def sQw (x1 : S16x2048.Idx → EReal) : FVec Ideal S4x16x2048 .f32 :=
  broadcastTo S4x16x2048 (shapeCast S1x16x2048 (shapeCast S1x16x2048 (sQ0 x1)
    shapeCasts_S16x2048_S1x16x2048) shapeCasts_S1x16x2048_S1x16x2048) broadcasts_S1x16x2048_S4x16x2048

/-- The scores. -/
def sS (x0 : S4x2048x512.Idx → EReal) (x1 : S16x2048.Idx → EReal) : FVec Ideal S4x16x512 .f32 :=
  matmul dot_S4x16x2048_S4x2048x512_S4x16x512_2_1_1_2_0_0 none (sQ x1) (sC x0) (constant S4x16x512 .f32 0x00000000#32)

/-- The row maxima. -/
def sM (x0 : S4x2048x512.Idx → EReal) (x1 : S16x2048.Idx → EReal) : FVec Ideal S4x16 .f32 :=
  maximumf (broadcast S4x16 (Scalar.ofBits .f32 0xFF800000#32))
    (multiReduction .maximumf [2] S4x16 (sS x0 x1) 0xFF800000#32 reduces_S4x16x512_S4x16 (.inl rfl) rfl)

/-- The shifted exponentials. -/
def sE (x0 : S4x2048x512.Idx → EReal) (x1 : S16x2048.Idx → EReal) : FVec Ideal S4x16x512 .f32 :=
  exp (subf (sS x0 x1) (broadcastTo S4x16x512 (shapeCast S4x16x1 (sM x0 x1) shapeCasts_S4x16_S4x16x1) broadcasts_S4x16x1_S4x16x512))

/-- The row sums of the exponentials. -/
def sZ (x0 : S4x2048x512.Idx → EReal) (x1 : S16x2048.Idx → EReal) : FVec Ideal S4x16 .f32 :=
  multiReduction .add [2] S4x16 (sE x0 x1) 0x00000000#32 reduces_S4x16x512_S4x16 (.inl rfl) rfl

/-- The weights. -/
def sW (x0 : S4x2048x512.Idx → EReal) (x1 : S16x2048.Idx → EReal) : FVec Ideal S4x16x512 .bf16 :=
  truncf .bf16 (divf (sE x0 x1) (broadcastTo S4x16x512 (shapeCast S4x16x1 (sZ x0 x1) shapeCasts_S4x16_S4x16x1) broadcasts_S4x16x1_S4x16x512))
    bitsLt_bf16_f32

/-- The mix. -/
def sX (x0 : S4x2048x512.Idx → EReal) (x1 : S16x2048.Idx → EReal) : FVec Ideal S4x16x2048 .f32 :=
  matmul dot_S4x16x512_S4x2048x512_S4x16x2048_2_2_1_1_0_0 none (sW x0 x1) (sC x0) (constant S4x16x2048 .f32 0x00000000#32)

/-- The stored value is the chain of its stages. -/
theorem pay_eq (x0 : S4x2048x512.Idx → EReal) (x1 : S16x2048.Idx → EReal) :
    k1_pay1 (F := Ideal) x0 x1
      = truncf .bf16 (concatenate S4x16x4096 2 [⟨S4x16x2048, sX x0 x1⟩, ⟨S4x16x2048, sQw x1⟩]
          concatenates_S4x16x2048_S4x16x2048_S4x16x4096_d2) bitsLt_bf16_f32 := rfl

/-! ## Layout operations at explicit coordinates -/

/-- The same-shape cast of the query is the query. -/
theorem sQ0_eq (x1 : S16x2048.Idx → EReal) : sQ0 x1 = x1 := shapeCast_self _ _

/-- A [16,2048] value viewed [1,16,2048] reads (r, d) at (0, r, d). -/
theorem addUnit_apply {α : Type} (v : S16x2048.Idx → α) (h : S16x2048.ShapeCasts S1x16x2048) (z : Fin 1) (r : Fin 16)
    (d : Fin 2048) : shapeCast S1x16x2048 v h (ix3 z r d) = v (ix2 r d) := by
  refine (shapeCast_addUnit_apply (n := 2) ![16, 2048] v h (ix3 z r d)).trans ?_
  congr 1
  funext a
  match a with
  | ⟨0, _⟩ => rfl
  | ⟨1, _⟩ => rfl

/-- A [1,16,2048] value broadcast over four batch elements reads (0, r, d) at (b, r, d). -/
theorem bcastQ_apply {α : Type} (v : S1x16x2048.Idx → α) (h : S1x16x2048.Broadcasts S4x16x2048) (b : Fin 4) (r : Fin 16)
    (d : Fin 2048) : broadcastTo S4x16x2048 v h (ix3 b r d) = v (ix3 (0 : Fin 1) r d) :=
  broadcastTo_apply v h (ix3 b r d) (ix3 (0 : Fin 1) r d) (fun a => by
    match a with
    | ⟨0, _⟩ => rfl
    | ⟨1, _⟩ => rfl
    | ⟨2, _⟩ => rfl)

/-- A [4,16] value viewed [4,16,1] and broadcast back over a row reads (b, r) at (b, r, l). -/
theorem rowBcast_apply {α : Type} (v : S4x16.Idx → α) (h : S4x16.ShapeCasts S4x16x1) (h' : S4x16x1.Broadcasts S4x16x512)
    (b : Fin 4) (r : Fin 16) (l : Fin 512) :
    broadcastTo S4x16x512 (shapeCast S4x16x1 v h) h' (ix3 b r l) = v (ix2 b r) := by
  refine (broadcastTo_apply _ h' (ix3 b r l) (ix3 b r (0 : Fin 1)) (fun a => by
    match a with
    | ⟨0, _⟩ => rfl
    | ⟨1, _⟩ => rfl
    | ⟨2, _⟩ => rfl)).trans ?_
  refine shapeCast_apply v h (ix3 b r (0 : Fin 1)) (ix2 b r) ?_
  rw [Shape.rowMajor_val_two, Shape.rowMajor_val_three]
  show b.val * 16 + r.val = (b.val * 16 + r.val) * 1 + 0
  omega

/-- The broadcast query in the narrow format at (b, r, d) is the query at (r, d). -/
theorem sQ_apply (x1 : S16x2048.Idx → EReal) (b : Fin 4) (r : Fin 16) (d : Fin 2048) : sQ x1 (ix3 b r d) = x1 (ix2 r d) := by
  unfold sQ
  refine (bcastQ_apply _ _ b r d).trans ?_
  rw [shapeCast_self]
  refine (addUnit_apply _ _ _ r d).trans ?_
  show sQ0 x1 (ix2 r d) = _
  rw [sQ0_eq]

/-- The broadcast query in the wide format at (b, r, d) is the query at (r, d). -/
theorem sQw_apply (x1 : S16x2048.Idx → EReal) (b : Fin 4) (r : Fin 16) (d : Fin 2048) : sQw x1 (ix3 b r d) = x1 (ix2 r d) := by
  unfold sQw
  refine (bcastQ_apply _ _ b r d).trans ?_
  rw [shapeCast_self]
  refine (addUnit_apply _ _ _ r d).trans ?_
  rw [sQ0_eq]

/-- The reduced index (b, r) with the coordinate k put back on the row axis is (b, r, k). -/
theorem lift_eq (h : S4x16x512.Reduces [2] S4x16) (b : Fin 4) (r : Fin 16) (k : Fin 512) : h.lift (ix2 b r) k = ix3 b r k := by
  funext a
  apply Fin.ext
  match a with
  | ⟨0, _⟩ => rfl
  | ⟨1, _⟩ => rfl
  | ⟨2, _⟩ => rfl

/-! ## The two contractions' index maps, coordinate by coordinate -/

/-- The dimension numbers of the scores' contraction. -/
abbrev D1 : DotDims S4x16x2048 S4x2048x512 S4x16x512 := dot_S4x16x2048_S4x2048x512_S4x16x512_2_1_1_2_0_0
/-- The dimension numbers of the mix's contraction. -/
abbrev D2 : DotDims S4x16x512 S4x2048x512 S4x16x2048 := dot_S4x16x512_S4x2048x512_S4x16x2048_2_2_1_1_0_0

theorem D1_lhs_0 (j : S4x16x512.Idx) (k : D1.contr.Idx) : (D1.lhsIdx j k 0 : ℕ) = j 0 := by
  simp [DotDims.lhsIdx, D1, dot_S4x16x2048_S4x2048x512_S4x16x512_2_1_1_2_0_0]; rfl
theorem D1_lhs_1 (j : S4x16x512.Idx) (k : D1.contr.Idx) : (D1.lhsIdx j k 1 : ℕ) = j 1 := by
  simp [DotDims.lhsIdx, D1, dot_S4x16x2048_S4x2048x512_S4x16x512_2_1_1_2_0_0]; rfl
theorem D1_lhs_2 (j : S4x16x512.Idx) (k : D1.contr.Idx) : (D1.lhsIdx j k 2 : ℕ) = k ⟨0, by decide⟩ := by
  simp [DotDims.lhsIdx, D1, dot_S4x16x2048_S4x2048x512_S4x16x512_2_1_1_2_0_0]; rfl
theorem D1_rhs_0 (j : S4x16x512.Idx) (k : D1.contr.Idx) : (D1.rhsIdx j k 0 : ℕ) = j 0 := by
  simp [DotDims.rhsIdx, D1, dot_S4x16x2048_S4x2048x512_S4x16x512_2_1_1_2_0_0]; rfl
theorem D1_rhs_1 (j : S4x16x512.Idx) (k : D1.contr.Idx) : (D1.rhsIdx j k 1 : ℕ) = k ⟨0, by decide⟩ := by
  simp [DotDims.rhsIdx, D1, dot_S4x16x2048_S4x2048x512_S4x16x512_2_1_1_2_0_0]; rfl
theorem D1_rhs_2 (j : S4x16x512.Idx) (k : D1.contr.Idx) : (D1.rhsIdx j k 2 : ℕ) = j 2 := by
  simp [DotDims.rhsIdx, D1, dot_S4x16x2048_S4x2048x512_S4x16x512_2_1_1_2_0_0]; rfl

theorem D2_lhs_0 (j : S4x16x2048.Idx) (k : D2.contr.Idx) : (D2.lhsIdx j k 0 : ℕ) = j 0 := by
  simp [DotDims.lhsIdx, D2, dot_S4x16x512_S4x2048x512_S4x16x2048_2_2_1_1_0_0]; rfl
theorem D2_lhs_1 (j : S4x16x2048.Idx) (k : D2.contr.Idx) : (D2.lhsIdx j k 1 : ℕ) = j 1 := by
  simp [DotDims.lhsIdx, D2, dot_S4x16x512_S4x2048x512_S4x16x2048_2_2_1_1_0_0]; rfl
theorem D2_lhs_2 (j : S4x16x2048.Idx) (k : D2.contr.Idx) : (D2.lhsIdx j k 2 : ℕ) = k ⟨0, by decide⟩ := by
  simp [DotDims.lhsIdx, D2, dot_S4x16x512_S4x2048x512_S4x16x2048_2_2_1_1_0_0]; rfl
theorem D2_rhs_0 (j : S4x16x2048.Idx) (k : D2.contr.Idx) : (D2.rhsIdx j k 0 : ℕ) = j 0 := by
  simp [DotDims.rhsIdx, D2, dot_S4x16x512_S4x2048x512_S4x16x2048_2_2_1_1_0_0]; rfl
theorem D2_rhs_1 (j : S4x16x2048.Idx) (k : D2.contr.Idx) : (D2.rhsIdx j k 1 : ℕ) = j 2 := by
  simp [DotDims.rhsIdx, D2, dot_S4x16x512_S4x2048x512_S4x16x2048_2_2_1_1_0_0]; rfl
theorem D2_rhs_2 (j : S4x16x2048.Idx) (k : D2.contr.Idx) : (D2.rhsIdx j k 2 : ℕ) = k ⟨0, by decide⟩ := by
  simp [DotDims.rhsIdx, D2, dot_S4x16x512_S4x2048x512_S4x16x2048_2_2_1_1_0_0]; rfl

/-- The scores' contraction index is the feature coordinate. -/
def E1 : D1.contr.Idx ≃ Fin 2048 := contrEquiv1 D1 2048 rfl rfl
/-- The mix's contraction index is the position coordinate. -/
def E2 : D2.contr.Idx ≃ Fin 512 := contrEquiv1 D2 512 rfl rfl

theorem E1_symm_val (d : Fin 2048) : ((E1.symm d) ⟨0, by decide⟩ : ℕ) = d.val := contrEquiv1_symm_val D1 2048 rfl rfl d
theorem E2_symm_val (l : Fin 512) : ((E2.symm l) ⟨0, by decide⟩ : ℕ) = l.val := contrEquiv1_symm_val D2 512 rfl rfl l

/-! ## The stages at explicit coordinates -/

/-- The scores at (b, r, l): the query's row r against the context's column l of batch element b. -/
theorem sS_apply (x0 : S4x2048x512.Idx → EReal) (x1 : S16x2048.Idx → EReal) (b : Fin 4) (r : Fin 16) (l : Fin 512) :
    sS x0 x1 (ix3 b r l) = ∑ d : Fin 2048, x1 (ix2 r d) * x0 (ix3 b d l) := by
  unfold sS
  refine (Ideal.matmul_constant_zero_apply D1 none (sQ x1) (sC x0) (ix3 b r l)).trans ?_
  rw [← Equiv.sum_comp E1.symm]
  refine Finset.sum_congr rfl fun d _ => ?_
  have hl : D1.lhsIdx (ix3 b r l) (E1.symm d) = ix3 b r d := by
    funext a
    apply Fin.ext
    match a with
    | ⟨0, _⟩ => exact D1_lhs_0 _ _
    | ⟨1, _⟩ => exact D1_lhs_1 _ _
    | ⟨2, _⟩ => exact (D1_lhs_2 _ _).trans (E1_symm_val d)
  have hr : D1.rhsIdx (ix3 b r l) (E1.symm d) = ix3 b d l := by
    funext a
    apply Fin.ext
    match a with
    | ⟨0, _⟩ => exact D1_rhs_0 _ _
    | ⟨1, _⟩ => exact (D1_rhs_1 _ _).trans (E1_symm_val d)
    | ⟨2, _⟩ => exact D1_rhs_2 _ _
  rw [hl, hr, sQ_apply]
  rfl

/-- The row maximum at (b, r): the fold of max from −∞ over the row, joined with −∞. -/
theorem sM_apply (x0 : S4x2048x512.Idx → EReal) (x1 : S16x2048.Idx → EReal) (b : Fin 4) (r : Fin 16) :
    sM x0 x1 (ix2 b r) = Cert.Spec.rowMax (fun l => sS x0 x1 (ix3 b r l)) := by
  unfold sM Cert.Spec.rowMax
  refine (maximumf_apply _ _ _).trans ?_
  refine congrArg (max _) ?_
  refine (Ideal.multiReduction_maximumf_single (sS x0 x1) _ reduces_S4x16x512_S4x16 _ _ (ix2 b r)).trans ?_
  have hf : (sS x0 x1 ∘ (reduces_S4x16x512_S4x16).lift (ix2 b r)) = fun l : Fin 512 => sS x0 x1 (ix3 b r l) :=
    funext fun k => congrArg (sS x0 x1) (lift_eq _ b r k)
  rw [hf]
  rfl

/-- The shifted exponential at (b, r, l). -/
theorem sE_apply (x0 : S4x2048x512.Idx → EReal) (x1 : S16x2048.Idx → EReal) (b : Fin 4) (r : Fin 16) (l : Fin 512) :
    sE x0 x1 (ix3 b r l) = Cert.Spec.expd (fun l' => sS x0 x1 (ix3 b r l')) l := by
  unfold sE Cert.Spec.expd
  show Ideal.exp (sS x0 x1 (ix3 b r l) - broadcastTo S4x16x512 (shapeCast S4x16x1 (sM x0 x1) shapeCasts_S4x16_S4x16x1)
    broadcasts_S4x16x1_S4x16x512 (ix3 b r l)) = _
  rw [rowBcast_apply, sM_apply]

/-- The row sum of the exponentials at (b, r). -/
theorem sZ_apply (x0 : S4x2048x512.Idx → EReal) (x1 : S16x2048.Idx → EReal) (b : Fin 4) (r : Fin 16) :
    sZ x0 x1 (ix2 b r) = ∑ l : Fin 512, sE x0 x1 (ix3 b r l) := by
  unfold sZ
  refine (Ideal.multiReduction_add_single (sE x0 x1) _ reduces_S4x16x512_S4x16 _ _ (ix2 b r)).trans ?_
  exact Finset.sum_congr rfl fun k _ => congrArg (sE x0 x1) (lift_eq _ b r k)

/-- The weight at (b, r, l): the softmax of the row of scores. -/
theorem sW_apply (x0 : S4x2048x512.Idx → EReal) (x1 : S16x2048.Idx → EReal) (b : Fin 4) (r : Fin 16) (l : Fin 512) :
    sW x0 x1 (ix3 b r l) = Cert.Spec.softmax (fun l' => sS x0 x1 (ix3 b r l')) l := by
  unfold sW Cert.Spec.softmax
  show Ideal.div (sE x0 x1 (ix3 b r l)) (broadcastTo S4x16x512 (shapeCast S4x16x1 (sZ x0 x1) shapeCasts_S4x16_S4x16x1)
    broadcasts_S4x16x1_S4x16x512 (ix3 b r l)) = _
  rw [rowBcast_apply, sZ_apply, sE_apply]
  exact congrArg (Ideal.div _) (Finset.sum_congr rfl fun l' _ => sE_apply x0 x1 b r l')

/-- The mix at (b, r, d): the weights' row r against the context's row d of batch element b. -/
theorem sX_apply (x0 : S4x2048x512.Idx → EReal) (x1 : S16x2048.Idx → EReal) (b : Fin 4) (r : Fin 16) (d : Fin 2048) :
    sX x0 x1 (ix3 b r d) = ∑ l : Fin 512, sW x0 x1 (ix3 b r l) * x0 (ix3 b d l) := by
  unfold sX
  refine (Ideal.matmul_constant_zero_apply D2 none (sW x0 x1) (sC x0) (ix3 b r d)).trans ?_
  rw [← Equiv.sum_comp E2.symm]
  refine Finset.sum_congr rfl fun l _ => ?_
  have hl : D2.lhsIdx (ix3 b r d) (E2.symm l) = ix3 b r l := by
    funext a
    apply Fin.ext
    match a with
    | ⟨0, _⟩ => exact D2_lhs_0 _ _
    | ⟨1, _⟩ => exact D2_lhs_1 _ _
    | ⟨2, _⟩ => exact (D2_lhs_2 _ _).trans (E2_symm_val l)
  have hr : D2.rhsIdx (ix3 b r d) (E2.symm l) = ix3 b d l := by
    funext a
    apply Fin.ext
    match a with
    | ⟨0, _⟩ => exact D2_rhs_0 _ _
    | ⟨1, _⟩ => exact D2_rhs_1 _ _
    | ⟨2, _⟩ => exact (D2_rhs_2 _ _).trans (E2_symm_val l)
  rw [hl, hr]
  rfl

/-- The row of scores the body computes at (b, r) is the specification's, of the query and batch element b's context. -/
theorem scores_row (x0 : S4x2048x512.Idx → EReal) (x1 : S16x2048.Idx → EReal) (b : Fin 4) (r : Fin 16) :
    (fun l => sS x0 x1 (ix3 b r l)) = Cert.Spec.scores (fun r' d => x1 (ix2 r' d)) (fun d l => x0 (ix3 b d l)) r :=
  funext fun l => sS_apply x0 x1 b r l

/-- The stored value at (b, r, e): the combined row of the block's batch element b. -/
theorem pay_apply (x0 : S4x2048x512.Idx → EReal) (x1 : S16x2048.Idx → EReal) (b : Fin 4) (r : Fin 16) (e : Fin 4096) :
    k1_pay1 (F := Ideal) x0 x1 (ix3 b r e)
      = Cert.Spec.combined (fun r' d => x1 (ix2 r' d)) (fun d l => x0 (ix3 b d l)) r e := by
  rw [pay_eq]
  show concatenate S4x16x4096 2 [⟨S4x16x2048, sX x0 x1⟩, ⟨S4x16x2048, sQw x1⟩]
    concatenates_S4x16x2048_S4x16x2048_S4x16x4096_d2 (ix3 b r e) = _
  unfold Cert.Spec.combined
  by_cases h : e.val < 2048
  · rw [dif_pos h]
    refine (concatenate_pair_apply_left (2 : Fin 3) (sX x0 x1) (sQw x1) concatenates_S4x16x2048_S4x16x2048_S4x16x4096_d2
      (ix3 b r e) rfl (ix3 b r (⟨e.val, h⟩ : Fin 2048)) (fun a => by
        match a with
        | ⟨0, _⟩ => rfl
        | ⟨1, _⟩ => rfl
        | ⟨2, _⟩ => rfl)).trans ?_
    rw [sX_apply]
    unfold Cert.Spec.mix
    refine Finset.sum_congr rfl fun l _ => ?_
    rw [sW_apply, scores_row]
  · rw [dif_neg h]
    have he : e.val - 2048 < 2048 := by have := e.isLt; omega
    refine (concatenate_pair_apply_right (2 : Fin 3) (sX x0 x1) (sQw x1) concatenates_S4x16x2048_S4x16x2048_S4x16x4096_d2
      (ix3 b r e) rfl rfl (ix3 b r (⟨e.val - 2048, he⟩ : Fin 2048)) (fun a hne => by
        match a, hne with
        | ⟨0, _⟩, _ => rfl
        | ⟨1, _⟩, _ => rfl
        | ⟨2, _⟩, hne => exact absurd rfl hne) ?_).trans ?_
    · show e.val - 2048 + 2048 = e.val
      omega
    · exact sQw_apply x1 b r _

end Cert.KernelIdeal.K1Pay

end
-- ==== Proof.K1.lean ====
/-
  The second pipeline (32 grid points, four batch elements each) leaves the combined rows: entry (n, r, e) of
  its output array is the combined row of batch element n — the mix of the softmaxed scores, then q's row —
  computed from the projected query's array and batch element n's context. Point t writes batch elements
  4t … 4t + 3; batch element n is in point n / 4's block, at position n % 4.
-/
import proofs.«166487_j65060164600030_1_alg».proof.Proof.KArrays
import proofs.«166487_j65060164600030_1_alg».proof.Proof.K1Pay
import Idealize.ShloMosaic.PureOps.Ideal.Laws

set_option maxRecDepth 16384

noncomputable section

namespace Cert.KernelIdeal.K1

open Idealize.ShloMosaic Idealize.ShloMosaic.TcCoe Idealize.SL.Sem Idealize.ShloMosaic.ValueIdx
open Cert.KernelIdeal Cert.KernelIdeal.Gen Cert.KernelIdeal.KV

variable (V : Vals)

/-- The zero offsets of a rank-3 block, as the constant function. -/
theorem hz3 : (![0, 0, 0] : Fin 3 → Nat) = fun _ => 0 := funext fun a => by fin_cases a <;> rfl
/-- The zero offsets of a rank-2 block, as the constant function. -/
theorem hz2 : (![0, 0] : Fin 2 → Nat) = fun _ => 0 := funext fun a => by fin_cases a <;> rfl

/-- The three index maps over the 32 points: the context's and the output's block index is (t, 0, 0), the
    projected query's is (0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The combined rows of every batch element, as one function of the projected query's array and the context. -/
def combG (q : S16x2048.Idx → EReal) (ctx : S128x2048x512.Idx → EReal) : S128x16x4096.Idx → EReal :=
  fun i => Cert.Spec.combined (fun r' d => q (ix2 r' d)) (fun d l => ctx (ix3 (i 0 : Fin 128) d l)) (i 1 : Fin 16) (i 2 : Fin 4096)

/-- The body's stored value at (b, r, e), when position b of the context's block is batch element n of the
    context and the query's block is the projected query's array. -/
theorem pay_at (x0 : S4x2048x512.Idx → EReal) (x1 : S16x2048.Idx → EReal) (q : S16x2048.Idx → EReal)
    (ctx : S128x2048x512.Idx → EReal) (n : Fin 128) (b : Fin 4) (r : Fin 16) (e : Fin 4096)
    (h0 : ∀ (d : Fin 2048) (l : Fin 512), x0 (ix3 b d l) = ctx (ix3 n d l))
    (h1 : ∀ (r' : Fin 16) (d : Fin 2048), x1 (ix2 r' d) = q (ix2 r' d)) :
    k1_pay1 (F := Ideal) x0 x1 (ix3 b r e)
      = Cert.Spec.combined (fun r' d => q (ix2 r' d)) (fun d l => ctx (ix3 n d l)) r e := by
  rw [K1Pay.pay_apply]
  congr 1
  · funext r' d; exact h1 r' d
  · funext d l; exact h0 d l

/-- Position (b, d, l) of the context's block at point t is the context at (4 t + b, d, l). -/
theorem ctxBlk_apply (c : Dev nD) (t : Fin cfg1.N) (b : Fin 4) (d : Fin 2048) (l : Fin 512) (n : Fin 128)
    (hn : n.val = 4 * t.val + b.val) :
    (iblk1 (F := Ideal) V c 0 t : S4x2048x512.Idx → EReal) (ix3 b d l) = ctxA V c (ix3 n d l) := by
  obtain ⟨e0, e1, e2, -⟩ := idx_facts t
  unfold iblk1
  rw [View.read_apply]
  show V c main_arg1 _ = V c main_arg1 _
  congr 1
  funext a
  apply Fin.ext
  match a with
  | ⟨0, _⟩ => show win1_0.index t (0 : Fin 3) * 4 + 1 * b.val = n.val; rw [e0, hn]; omega
  | ⟨1, _⟩ => show win1_0.index t (1 : Fin 3) * 2048 + 1 * d.val = d.val; rw [e1]; omega
  | ⟨2, _⟩ => show win1_0.index t (2 : Fin 3) * 512 + 1 * l.val = l.val; rw [e2]; omega

/-- The projected query's block at every point is its whole array. -/
theorem qBlk_apply (c : Dev nD) (t : Fin cfg1.N) (r : Fin 16) (d : Fin 2048) :
    (iblk1 (F := Ideal) V c 1 t : S16x2048.Idx → EReal) (ix2 r d) = qA V c (ix2 r d) := by
  obtain ⟨-, -, -, e3, e4, -⟩ := idx_facts t
  unfold iblk1
  rw [View.read_apply]
  show V c main_v0 _ = V c main_v0 _
  congr 1
  funext a
  apply Fin.ext
  match a with
  | ⟨0, _⟩ => show win1_1.index t (0 : Fin 2) * 16 + 1 * r.val = r.val; rw [e3]; omega
  | ⟨1, _⟩ => show win1_1.index t (1 : Fin 2) * 2048 + 1 * d.val = d.val; rw [e4]; omega

/-- What point t writes back is its block of the combined rows of every batch element. -/
theorem flushed_eq (c : Dev nD) (t : Fin cfg1.N) :
    (dat1 (F := Ideal) V c).flushed 2 t
      = ((cfg1.win 2).blk t).view.read (Elt Ideal) (combG (qA V c) (ctxA V c)) := by
  show (cfg1.win 2).cut (grid1.coords t) ((dat1 (F := Ideal) V c).after 2 t) = _
  rw [after1_2]
  unfold out1_2
  rw [View.canon_unit_zero hz3]
  simp only [View.ld_unit_zero (S := S4x2048x512) hz3, View.ld_unit_zero (S := S16x2048) hz2]
  obtain ⟨-, -, -, -, -, e5, e6, e7⟩ := idx_facts t
  funext j
  have hb : (j 0).val < 4 := (j 0).isLt
  have ht : t.val < 32 := lt_of_lt_of_eq t.isLt N_1
  have hx : win1_2.xinj (grid1.coords t) j
      = ix3 (⟨(j 0).val, hb⟩ : Fin 4) (⟨(j 1).val, (j 1).isLt⟩ : Fin 16) (⟨(j 2).val, (j 2).isLt⟩ : Fin 4096) := by
    funext a
    match a with
    | ⟨0, _⟩ => rfl
    | ⟨1, _⟩ => rfl
    | ⟨2, _⟩ => rfl
  have hi : ((cfg1.win 2).blk t).view.emb j
      = ix3 (⟨4 * t.val + (j 0).val, by omega⟩ : Fin 128) (⟨(j 1).val, (j 1).isLt⟩ : Fin 16) (⟨(j 2).val, (j 2).isLt⟩ : Fin 4096) := by
    funext a
    apply Fin.ext
    match a with
    | ⟨0, _⟩ => show win1_2.index t (0 : Fin 3) * 4 + 1 * (j 0).val = 4 * t.val + (j 0).val; rw [e5]; omega
    | ⟨1, _⟩ => show win1_2.index t (1 : Fin 3) * 16 + 1 * (j 1).val = (j 1).val; rw [e6]; omega
    | ⟨2, _⟩ => show win1_2.index t (2 : Fin 3) * 4096 + 1 * (j 2).val = (j 2).val; rw [e7]; omega
  show k1_pay1 (F := Ideal) (iblk1 (F := Ideal) V c 0 t) (iblk1 (F := Ideal) V c 1 t) (win1_2.xinj (grid1.coords t) j)
      = combG (qA V c) (ctxA V c) (((cfg1.win 2).blk t).view.emb j)
  rw [hx, hi]
  exact pay_at (iblk1 (F := Ideal) V c 0 t) (iblk1 (F := Ideal) V c 1 t) (qA V c) (ctxA V c)
    (⟨4 * t.val + (j 0).val, by omega⟩ : Fin 128) (⟨(j 0).val, hb⟩ : Fin 4) (⟨(j 1).val, (j 1).isLt⟩ : Fin 16) (⟨(j 2).val, (j 2).isLt⟩ : Fin 4096)
    (fun d l => ctxBlk_apply V c t _ d l _ rfl) (fun r' d => qBlk_apply V c t r' d)

/-- An index of the output array is in point t's block iff each coordinate is in the block's range on its axis. -/
theorem mem_blk (t : Fin cfg1.N) (i : S128x16x4096.Idx) :
    i ∈ ((cfg1.win 2).blk t).view.set ↔ ∀ a : Fin 3, win1_2.index t a * S4x16x4096.size a ≤ (i a).val
      ∧ (i a).val < win1_2.index t a * S4x16x4096.size a + S4x16x4096.size a := by
  show i ∈ ((View.whole main_v1).slice (win1_2.rect t)).set ↔ _
  rw [View.set_slice_whole, Rect.mem_set_unit]
  exact Iff.rfl

/-- Every index (n, r, e) of the output array is in the block of point n / 4. -/
theorem covered (i : S128x16x4096.Idx) :
    ∃ t : Fin cfg1.N, (cfg1.win 2).flush t = true ∧ i ∈ ((cfg1.win 2).blk t).view.set := by
  have h0 : (i 0).val < 128 := (i 0).isLt
  have h1 : (i 1).val < 16 := (i 1).isLt
  have h2 : (i 2).val < 4096 := (i 2).isLt
  obtain ⟨t, ht⟩ : ∃ t : Fin cfg1.N, t.val = (i 0).val / 4 :=
    ⟨⟨(i 0).val / 4, lt_of_lt_of_eq (by omega : (i 0).val / 4 < 32) N_1.symm⟩, rfl⟩
  obtain ⟨-, -, -, -, -, e5, e6, e7⟩ := idx_facts t
  refine ⟨t, flush1_2 t, ?_⟩
  rw [mem_blk]
  intro a
  match a with
  | ⟨0, _⟩ =>
    show win1_2.index t (0 : Fin 3) * 4 ≤ (i 0).val ∧ (i 0).val < win1_2.index t (0 : Fin 3) * 4 + 4
    rw [e5, ht]; omega
  | ⟨1, _⟩ =>
    show win1_2.index t (1 : Fin 3) * 16 ≤ (i 1).val ∧ (i 1).val < win1_2.index t (1 : Fin 3) * 16 + 16
    rw [e6]; omega
  | ⟨2, _⟩ =>
    show win1_2.index t (2 : Fin 3) * 4096 ≤ (i 2).val ∧ (i 2).val < win1_2.index t (2 : Fin 3) * 4096 + 4096
    rw [e7]; omega

/-- The array the second pipeline leaves is the combined rows of every batch element. -/
theorem out1_eq (c : Dev nD) : out1 V c = combG (qA V c) (ctxA V c) := by
  unfold out1
  exact (dat1 (F := Ideal) V c).arrAt_eq_of_cover 2 (combG (qA V c) (ctxA V c))
    (fun t _ => flushed_eq V c t) covered

/-- The array the second pipeline leaves, read at (n, r, e). -/
theorem out1_apply (c : Dev nD) (n : Fin 128) (r : Fin 16) (e : Fin 4096) :
    out1 V c (ix3 n r e)
      = Cert.Spec.combined (fun r' d => qA V c (ix2 r' d)) (fun d l => ctxA V c (ix3 n d l)) r e := by
  rw [out1_eq]
  rfl

end Cert.KernelIdeal.K1

end
-- ==== Proof.K2.lean ====
/-
  The third pipeline (4 grid points of 512 rows) leaves the output entries: entry (row, o) of its output array
  is tanh(Σ_e combined[row, e] · W_out[o, e]) over the flattened combined rows.
-/
import proofs.«166487_j65060164600030_1_alg».proof.Proof.KArrays
import Idealize.ShloMosaic.PureOps.Ideal.Laws

set_option maxRecDepth 16384

noncomputable section

namespace Cert.KernelIdeal.K2

open Idealize.ShloMosaic Idealize.ShloMosaic.TcCoe Idealize.SL.Sem Idealize.ShloMosaic.ValueIdx
open Cert.KernelIdeal Cert.KernelIdeal.Gen Cert.KernelIdeal.KV

variable (V : Vals)

/-- The output projection's dimension numbers: both operands contract their second axis. -/
abbrev DP := dot_S512x4096_S1024x4096_S512x1024_1_1_0_0_n_n

theorem DP_rank : DP.contr.rank = 1 := rfl
theorem DP_size : DP.contr.size ⟨0, by rw [DP_rank]; omega⟩ = 4096 := rfl

theorem lhsDP_0 (j : S512x1024.Idx) (k : DP.contr.Idx) : (DP.lhsIdx j k 0 : ℕ) = j 0 := by
  simp [DotDims.lhsIdx, DP, dot_S512x4096_S1024x4096_S512x1024_1_1_0_0_n_n]; rfl
theorem lhsDP_1 (j : S512x1024.Idx) (k : DP.contr.Idx) : (DP.lhsIdx j k 1 : ℕ) = k ⟨0, by decide⟩ := by
  simp [DotDims.lhsIdx, DP, dot_S512x4096_S1024x4096_S512x1024_1_1_0_0_n_n]; rfl
theorem rhsDP_0 (j : S512x1024.Idx) (k : DP.contr.Idx) : (DP.rhsIdx j k 0 : ℕ) = j 1 := by
  simp [DotDims.rhsIdx, DP, dot_S512x4096_S1024x4096_S512x1024_1_1_0_0_n_n]; rfl
theorem rhsDP_1 (j : S512x1024.Idx) (k : DP.contr.Idx) : (DP.rhsIdx j k 1 : ℕ) = k ⟨0, by decide⟩ := by
  simp [DotDims.rhsIdx, DP, dot_S512x4096_S1024x4096_S512x1024_1_1_0_0_n_n]; rfl

/-- The contraction's index is its one coordinate, a column of the 4096. -/
abbrev cE : DP.contr.Idx ≃ Fin 4096 := contrEquiv1 DP 4096 DP_rank DP_size

theorem cE_symm_val (e : Fin 4096) : ((cE.symm e) ⟨0, by decide⟩ : ℕ) = e.val :=
  contrEquiv1_symm_val DP 4096 DP_rank DP_size e

/-- The left operand's index at output (p, o) and column e is (p, e). -/
theorem lhsDP_ix (p : Fin 512) (o : Fin 1024) (e : Fin 4096) : DP.lhsIdx (ix2 p o) (cE.symm e) = ix2 p e := by
  funext a; apply Fin.ext
  match a with
  | ⟨0, _⟩ => exact lhsDP_0 _ _
  | ⟨1, _⟩ => exact (lhsDP_1 _ _).trans (cE_symm_val e)

/-- The right operand's index at output (p, o) and column e is (o, e). -/
theorem rhsDP_ix (p : Fin 512) (o : Fin 1024) (e : Fin 4096) : DP.rhsIdx (ix2 p o) (cE.symm e) = ix2 o e := by
  funext a; apply Fin.ext
  match a with
  | ⟨0, _⟩ => exact rhsDP_0 _ _
  | ⟨1, _⟩ => exact (rhsDP_1 _ _).trans (cE_symm_val e)

/-- The body's stored value at (p, o): tanh of row p of the rows' block against row o of the weights. -/
theorem pay_apply (x0 : S512x4096.Idx → EReal) (x1 : S1024x4096.Idx → EReal) (p : Fin 512) (o : Fin 1024) :
    k2_pay1 (F := Ideal) x0 x1 (ix2 p o) = Ideal.tanh (∑ e : Fin 4096, x0 (ix2 p e) * x1 (ix2 o e)) := by
  unfold k2_pay1
  show Ideal.tanh (FloatOps.matmul (F := Ideal) DP none (shapeCast S512x4096 (x0 : FVec Ideal S512x4096 .bf16) shapeCasts_S512x4096_S512x4096)
    (truncf .bf16 (x1 : FVec Ideal S1024x4096 .f32) bitsLt_bf16_f32) (constant S512x1024 .f32 0x00000000#32) (ix2 p o)) = _
  refine congrArg Ideal.tanh ?_
  refine (Ideal.matmul_constant_zero_apply DP none _ _ (ix2 p o)).trans ?_
  rw [shapeCast_self, ← Equiv.sum_comp cE.symm]
  refine Finset.sum_congr rfl fun e _ => ?_
  rw [lhsDP_ix, rhsDP_ix]
  rfl

/-! ## From the block to the array -/

theorem hz2 : (![0, 0] : Fin 2 → Nat) = fun _ => 0 := funext fun a => by fin_cases a <;> rfl

/-- The body's stored value at any index of the output block. -/
theorem pay_at (x0 : S512x4096.Idx → EReal) (x1 : S1024x4096.Idx → EReal) (j : S512x1024.Idx) :
    k2_pay1 (F := Ideal) x0 x1 j = Ideal.tanh (∑ e : Fin 4096, x0 (ix2 (j 0) e) * x1 (ix2 (j 1) e)) := by
  exact (congrArg (k2_pay1 (F := Ideal) x0 x1) (eq_ix2 j)).trans (pay_apply x0 x1 (j 0) (j 1))

/-- What the output array ends holding: entry (row, o) is tanh of the flattened combined row against row o of the weights. -/
abbrev G2 (c : Dev nD) : S2048x1024.Idx → EReal := fun i =>
  Ideal.tanh (∑ e : Fin 4096, combFlatA V c (ix2 (i 0) e) * woutA V c (ix2 (i 1) e))

/-- The printed index maps over the four points: the rows' block and the output's block are both the point's, at column
    block zero; the weights' block is the whole array. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 3
    ∧ win2_2.index t (1 : Fin 2) = 0 :=
  (by decide +kernel : ∀ t : Fin grid2.N, _)

/-- Every block of 512 rows is some point's. -/
theorem idx_onto2 : ∀ q0 : Fin 4, ∃ t : Fin cfg2.N, win2_2.index t = ![q0.val, 0] :=
  (by decide +kernel : ∀ q0 : Fin 4, ∃ t : Fin grid2.N, win2_2.index t = ![q0.val, 0])

/-- What point t writes back is block t of G2. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 (F := Ideal) V c).after 2 t) = _
  rw [after2_2]
  unfold out2_2
  rw [View.canon_unit_zero hz2]
  simp only [View.ld_unit_zero (S := S512x4096) hz2, View.ld_unit_zero (S := S1024x4096) hz2]
  obtain ⟨e0, e1, e2, e3, e4, e5⟩ := idx_facts2 t
  funext j
  show k2_pay1 (F := Ideal) (iblk2 (F := Ideal) V c 0 t) (iblk2 (F := Ideal) V c 1 t) j = G2 V c (((cfg2.win 2).blk t).view.emb j)
  refine (pay_at (iblk2 (F := Ideal) V c 0 t) (iblk2 (F := Ideal) V c 1 t) j).trans ?_
  refine congrArg Ideal.tanh (Finset.sum_congr rfl fun e _ => ?_)
  have h0 : iblk2 (F := Ideal) V c 0 t (ix2 (j 0) e) = combFlatA V c (ix2 ((((cfg2.win 2).blk t).view.emb j) 0) e) := by
    show V c main_v2 (((cfg2.win 0).blk t).view.emb (ix2 (j 0) e)) = V c main_v2 (ix2 ((((cfg2.win 2).blk t).view.emb j) 0) e)
    refine congrArg (V c main_v2) ?_
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 4096 + 1 * e.val = e.val; omega
  have h1 : iblk2 (F := Ideal) V c 1 t (ix2 (j 1) e) = woutA V c (ix2 ((((cfg2.win 2).blk t).view.emb j) 1) e) := by
    show V c main_arg4 (((cfg2.win 1).blk t).view.emb (ix2 (j 1) e)) = V c main_arg4 (ix2 ((((cfg2.win 2).blk t).view.emb j) 1) e)
    refine congrArg (V c main_arg4) ?_
    funext a; apply Fin.ext
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 4096 + 1 * e.val = e.val; omega
  exact congrArg₂ (· * ·) h0 h1

/-- An index of the output array is in point t's block iff each coordinate is in the block's range on its axis. -/
theorem mem_blk2 (t : Fin cfg2.N) (i : S2048x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v3).slice (win2_2.rect t)).set ↔ _
  rw [View.set_slice_whole, Rect.mem_set_unit]
  exact Iff.rfl

/-- The four blocks of 512 rows tile the 2048 rows: row `row` is in the block of point row / 512. -/
theorem cover2 (i : S2048x1024.Idx) :
    ∃ t : Fin cfg2.N, (cfg2.win 2).flush t = true ∧ i ∈ ((cfg2.win 2).blk t).view.set := by
  have hi0 : (i 0).val < 2048 := (i 0).isLt
  have hi1 : (i 1).val < 1024 := (i 1).isLt
  obtain ⟨t, ht⟩ := idx_onto2 ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The array the third pipeline leaves is G2. -/
theorem out2_eq (c : Dev nD) : out2 V c = G2 V c := by
  unfold out2
  exact (dat2 (F := Ideal) V c).arrAt_eq_of_cover 2 (G2 V c) (fun t _ => flushed2_eq V c t) cover2

/-- The array the third pipeline leaves, read at (row, o). -/
theorem out2_apply (c : Dev nD) (row : Fin 2048) (o : Fin 1024) :
    out2 V c (ix2 row o)
      = Cert.Spec.proj (fun e => combFlatA V c (ix2 row e)) (fun o' e => woutA V c (ix2 o' e)) o := by
  rw [out2_eq]
  rfl

end Cert.KernelIdeal.K2

end
-- ==== Proof.KTail.lean ====
/-
  The kernel program's host operations as pure functions, read at an index: the flattening of (batch, query
  row) into one row axis between the second and third pipelines, and the tail after the third — unflatten,
  swap query row and channel, split the 16 rows into a 4 × 4 map, repeat each map entry over a 4 × 4 patch of
  pixels (two broadcasts, each followed by a merge of two axes), and put the input feature map in front along
  the channels.
-/
import proofs.«166487_j65060164600030_1_alg».proof.KernelIdeal
import proofs.«166487_j65060164600030_1_alg».proof.Proof.Gen.KernelIdeal
import proofs.«166487_j65060164600030_1_alg».proof.Proof.Spec
import Idealize.ShloMosaic.Lib.ValueIdx
import Idealize.ShloMosaic.Lib.Pipeline.Value

noncomputable section

namespace Cert.KernelIdeal.KTail

open Idealize.ShloMosaic Idealize.SL.Sem Idealize.ShloMosaic.ValueIdx
open Cert.KernelIdeal Cert.KernelIdeal.Facts₀

/-- Row n·16 + r of the flattened arrays. -/
def flatRow (n : Fin 128) (r : Fin 16) : Fin 2048 := ⟨n.val * 16 + r.val, by have := n.isLt; have := r.isLt; omega⟩

/-- The combined rows with (batch, query row) flattened into one axis. -/
def flat (x : S128x16x4096.Idx → EReal) : S2048x4096.Idx → EReal :=
  shapeCast S2048x4096 x shapeCasts_S128x16x4096_S2048x4096

/-- Row n·16 + r of the flattened array is row (n, r). -/
theorem flat_apply (x : S128x16x4096.Idx → EReal) (n : Fin 128) (r : Fin 16) (e : Fin 4096) :
    flat x (ix2 (flatRow n r) e) = x (ix3 n r e) := by
  unfold flat
  refine shapeCast_apply x _ _ _ ?_
  rw [Shape.rowMajor_val_three, Shape.rowMajor_val_two]
  show (n.val * 16 + r.val) * 4096 + e.val = (n.val * 16 + r.val) * 4096 + e.val
  rfl

/-! ## One operation at a time, read at explicit coordinates -/

/-- Unflatten: [2048, 1024] viewed [128, 16, 1024] at (n, r, o) is the source at row n·16 + r, column o. -/
theorem unflat_apply (x : S2048x1024.Idx → EReal) (hs : S2048x1024.ShapeCasts S128x16x1024)
    (n : Fin 128) (r : Fin 16) (o : Fin 1024) :
    shapeCast S128x16x1024 x hs (ix3 n r o) = x (ix2 (flatRow n r) o) := by
  refine shapeCast_apply x hs _ _ ?_
  rw [Shape.rowMajor_val_three, Shape.rowMajor_val_two]
  show (n.val * 16 + r.val) * 1024 + o.val = (n.val * 16 + r.val) * 1024 + o.val
  rfl

/-- Swap query row and channel: the transposed array at (n, o, r) is the source at (n, r, o). -/
theorem swap_apply (y : S128x16x1024.Idx → EReal) (ht : S128x16x1024.Transposes [0, 2, 1] S128x1024x16)
    (n : Fin 128) (o : Fin 1024) (r : Fin 16) :
    transpose S128x1024x16 [0, 2, 1] y ht (ix3 n o r) = y (ix3 n r o) :=
  transpose_apply _ y ht _ _ fun b => match b with | ⟨0, _⟩ => rfl | ⟨1, _⟩ => rfl | ⟨2, _⟩ => rfl

/-- Split the 16 rows into a 4 × 4 map: entry (p, c) of the map is row p·4 + c. -/
theorem split_apply (y : S128x1024x16.Idx → EReal) (hs : S128x1024x16.ShapeCasts S128x1024x4x4)
    (n : Fin 128) (o : Fin 1024) (p c : Fin 4) :
    shapeCast S128x1024x4x4 y hs (ix4 n o p c)
      = y (ix3 n o (⟨p.val * 4 + c.val, by have := p.isLt; have := c.isLt; omega⟩ : Fin 16)) := by
  refine shapeCast_apply y hs _ _ ?_
  rw [Shape.rowMajor_val_three, Shape.rowMajor_val_four]
  show (n.val * 1024 + o.val) * 16 + (p.val * 4 + c.val) = ((n.val * 1024 + o.val) * 4 + p.val) * 4 + c.val
  omega

/-- Repeat along a new axis 3: the entry at (n, o, p, q, c) is the source at (n, o, p, c). -/
theorem rep3_apply (y : S128x1024x4x4.Idx → EReal)
    (hb : S128x1024x4x4.BroadcastsInDim S128x1024x4x4x4 (![0, 1, 2, 4] : Fin 4 → Fin S128x1024x4x4x4.rank))
    (n : Fin 128) (o : Fin 1024) (p q c : Fin 4) :
    broadcastInDim S128x1024x4x4x4 ![0, 1, 2, 4] hb y (ix5 n o p q c) = y (ix4 n o p c) :=
  broadcastInDim_apply _ hb y _ _ fun a => match a with
    | ⟨0, _⟩ => rfl | ⟨1, _⟩ => rfl | ⟨2, _⟩ => rfl | ⟨3, _⟩ => rfl

/-- Merge axes 2 and 3 ([4, 4] → 16): pixel row h is (h / 4, h % 4). -/
theorem merge23_apply (y : S128x1024x4x4x4.Idx → EReal) (hs : S128x1024x4x4x4.ShapeCasts S128x1024x16x4)
    (n : Fin 128) (o : Fin 1024) (h : Fin 16) (c : Fin 4) :
    shapeCast S128x1024x16x4 y hs (ix4 n o h c)
      = y (ix5 n o (⟨h.val / 4, by have := h.isLt; omega⟩ : Fin 4) (⟨h.val % 4, by omega⟩ : Fin 4) c) := by
  refine shapeCast_apply y hs _ _ ?_
  rw [Shape.rowMajor_val_five, Shape.rowMajor_val_four]
  show (((n.val * 1024 + o.val) * 4 + h.val / 4) * 4 + h.val % 4) * 4 + c.val
      = ((n.val * 1024 + o.val) * 16 + h.val) * 4 + c.val
  omega

/-- Repeat along a new last axis: the entry at (n, o, h, c, q) is the source at (n, o, h, c). -/
theorem rep4_apply (y : S128x1024x16x4.Idx → EReal)
    (hb : S128x1024x16x4.BroadcastsInDim S128x1024x16x4x4 (![0, 1, 2, 3] : Fin 4 → Fin S128x1024x16x4x4.rank))
    (n : Fin 128) (o : Fin 1024) (h : Fin 16) (c q : Fin 4) :
    broadcastInDim S128x1024x16x4x4 ![0, 1, 2, 3] hb y (ix5 n o h c q) = y (ix4 n o h c) :=
  broadcastInDim_apply _ hb y _ _ fun a => match a with
    | ⟨0, _⟩ => rfl | ⟨1, _⟩ => rfl | ⟨2, _⟩ => rfl | ⟨3, _⟩ => rfl

/-- Merge axes 3 and 4 ([4, 4] → 16): pixel column w is (w / 4, w % 4). -/
theorem merge34_apply (y : S128x1024x16x4x4.Idx → EReal) (hs : S128x1024x16x4x4.ShapeCasts S128x1024x16x16)
    (n : Fin 128) (o : Fin 1024) (h w : Fin 16) :
    shapeCast S128x1024x16x16 y hs (ix4 n o h w)
      = y (ix5 n o h (⟨w.val / 4, by have := w.isLt; omega⟩ : Fin 4) (⟨w.val % 4, by omega⟩ : Fin 4)) := by
  refine shapeCast_apply y hs _ _ ?_
  rw [Shape.rowMajor_val_five, Shape.rowMajor_val_four]
  show (((n.val * 1024 + o.val) * 16 + h.val) * 4 + w.val / 4) * 4 + w.val % 4
      = ((n.val * 1024 + o.val) * 16 + h.val) * 16 + w.val
  omega

/-- The host operations after the third pipeline, on the input feature map and the flattened output. -/
def tail (a0 : S128x1024x16x16.Idx → EReal) (x : S2048x1024.Idx → EReal) : S128x2048x16x16.Idx → EReal :=
  concatenate S128x2048x16x16 1
    [⟨S128x1024x16x16, a0⟩,
     ⟨S128x1024x16x16,
      shapeCast S128x1024x16x16
        (broadcastInDim S128x1024x16x4x4 ![0, 1, 2, 3] bcast_S128x1024x16x4_S128x1024x16x4x4_0_1_2_3
          (shapeCast S128x1024x16x4
            (broadcastInDim S128x1024x4x4x4 ![0, 1, 2, 4] bcast_S128x1024x4x4_S128x1024x4x4x4_0_1_2_4
              (shapeCast S128x1024x4x4
                (transpose S128x1024x16 [0, 2, 1]
                  (shapeCast S128x16x1024 x shapeCasts_S2048x1024_S128x16x1024)
                  transposes_S128x16x1024_S128x1024x16_0_2_1)
                shapeCasts_S128x1024x16_S128x1024x4x4))
            shapeCasts_S128x1024x4x4x4_S128x1024x16x4))
        shapeCasts_S128x1024x16x4x4_S128x1024x16x16⟩]
    concatenates_S128x1024x16x16_S128x1024x16x16_S128x2048x16x16_d1

/-- The tail read at (n, ch, h, w): the input feature map on the first 1024 channels; on channel 1024 + o the
    flattened output at row n·16 + (the query row pixel (h, w) shows), column o. -/
theorem tail_apply (a0 : S128x1024x16x16.Idx → EReal) (x : S2048x1024.Idx → EReal)
    (n : Fin 128) (ch : Fin 2048) (h w : Fin 16) :
    tail a0 x (ix4 n ch h w)
      = if hc : ch.val < 1024 then a0 (ix4 n (⟨ch.val, hc⟩ : Fin 1024) h w)
        else x (ix2 (flatRow n (Cert.Spec.pixelRow h w)) (⟨ch.val - 1024, by have := ch.isLt; omega⟩ : Fin 1024)) := by
  unfold tail
  by_cases hc : ch.val < 1024
  · rw [dif_pos hc]
    exact concatenate_pair_apply_left (t := S128x2048x16x16) (s₁ := S128x1024x16x16) (s₂ := S128x1024x16x16)
      (1 : Fin 4) a0 _ _ (ix4 n ch h w) rfl (ix4 n (⟨ch.val, hc⟩ : Fin 1024) h w)
      (fun b => match b with | ⟨0, _⟩ => rfl | ⟨1, _⟩ => rfl | ⟨2, _⟩ => rfl | ⟨3, _⟩ => rfl)
  · rw [dif_neg hc]
    have hlt : ch.val - 1024 < 1024 := by have := ch.isLt; omega
    refine (concatenate_pair_apply_right (t := S128x2048x16x16) (s₁ := S128x1024x16x16) (s₂ := S128x1024x16x16)
      (1 : Fin 4) a0 _ _ (ix4 n ch h w) rfl rfl (ix4 n (⟨ch.val - 1024, hlt⟩ : Fin 1024) h w)
      (fun b => match b with
        | ⟨0, _⟩ => fun _ => rfl
        | ⟨1, _⟩ => fun hne => absurd (Fin.ext rfl) hne
        | ⟨2, _⟩ => fun _ => rfl
        | ⟨3, _⟩ => fun _ => rfl)
      (by show ch.val - 1024 + 1024 = ch.val; omega)).trans ?_
    refine (merge34_apply _ _ n _ h w).trans ?_
    refine (rep4_apply _ _ n _ h _ _).trans ?_
    refine (merge23_apply _ _ n _ h _).trans ?_
    refine (rep3_apply _ _ n _ _ _ _).trans ?_
    refine (split_apply _ _ n _ _ _).trans ?_
    refine (swap_apply _ _ n _ _).trans ?_
    exact unflat_apply x _ n _ _

end Cert.KernelIdeal.KTail

end
-- ==== Proof.KValue.lean ====
/-
  The kernel program's result as one function of its arguments. The buffer contents at the program's last
  boundary are a fold through @main: the launch memory; the first pipeline's array (the projected query); the
  second pipeline's array (the combined rows), computed from the projected query and the context; the reshape
  that flattens (batch, query row); the third pipeline's array (the output entries), computed from the flattened
  combined rows and W_out; and the tail that lays the output entries out as a 16 × 16 map per channel behind the
  input feature map. Reading the fold back at the result buffer, stage by stage, gives the specification's
  `result` of the launch contents of the five arguments.
-/
import proofs.«166487_j65060164600030_1_alg».proof.Proof.K0
import proofs.«166487_j65060164600030_1_alg».proof.Proof.K1
import proofs.«166487_j65060164600030_1_alg».proof.Proof.K2
import proofs.«166487_j65060164600030_1_alg».proof.Proof.KTail
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.KV Cert.KernelIdeal.KTail

variable (m : (ℓ : Loc nD τ sig) → Buf (Elt Ideal) ℓ) (ρ : Dev nD → PrngReg)

/-- The arguments as functions of coordinates. -/
def catF (c : Dev nD) (n : Fin 128) (ch : Fin 1024) (h w : Fin 16) : EReal :=
  (m ((c : Thread nD τ).loc main_arg0) : S128x1024x16x16.Idx → EReal) (ix4 n ch h w)
def ctxF (c : Dev nD) (n : Fin 128) (d : Fin 2048) (l : Fin 512) : EReal :=
  (m ((c : Thread nD τ).loc main_arg1) : S128x2048x512.Idx → EReal) (ix3 n d l)
def queryF (c : Dev nD) (r : Fin 16) (d : Fin 2048) : EReal :=
  (m ((c : Thread nD τ).loc main_arg2) : S1x16x2048.Idx → EReal) (ix3 (0 : Fin 1) r d)
def winF (c : Dev nD) (e d : Fin 2048) : EReal :=
  (m ((c : Thread nD τ).loc main_arg3) : S2048x2048.Idx → EReal) (ix2 e d)
def woutF (c : Dev nD) (o : Fin 1024) (e : Fin 4096) : EReal :=
  (m ((c : Thread nD τ).loc main_arg4) : S1024x4096.Idx → EReal) (ix2 o e)

/-! ## The fold, boundary by boundary -/

/-- Entering the first pipeline, the query and W_in are as launched. -/
theorem query0 (c : Dev nD) : queryA (V0 m ρ) c = m ((c : Thread nD τ).loc main_arg2) := rfl
theorem win0 (c : Dev nD) : winA (V0 m ρ) c = m ((c : Thread nD τ).loc main_arg3) := rfl

/-- Entering the second pipeline, the projected query's array is what the first pipeline left. -/
theorem q1 (c : Dev nD) : qA (V1 m ρ) c = out0 (V0 m ρ) c := W1_arr m ρ c 2

/-- Entering the second pipeline, the context is as launched: the first pipeline does not touch it. -/
theorem ctx1 (c : Dev nD) : ctxA (V1 m ρ) c = m ((c : Thread nD τ).loc main_arg1) :=
  W1_of_ne m ρ c main_arg1 (by decide)

/-- After the second pipeline, the combined rows' array is what it left. -/
theorem comb2 (c : Dev nD) : (W2 m ρ c (Proc.devRef .tc main_v1) : S128x16x4096.Idx → EReal) = out1 (V1 m ρ) c :=
  W2_arr m ρ c 2

/-- Entering the third pipeline, the flattened combined rows are the reshape of the second pipeline's array. -/
theorem flat3 (c : Dev nD) : combFlatA (V3 m ρ) c = flat (out1 (V1 m ρ) c) := by
  rw [← comb2]
  show StableHlo.after hostOps2 (W2 m ρ c) (Proc.devRef .tc main_v2) = _
  after_results
  rfl

/-- Entering the third pipeline, W_out is as launched: no pipeline and no host operation before it writes it. -/
theorem wout3 (c : Dev nD) : woutA (V3 m ρ) c = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps2, List.Forall, StableHlo.reshape_writes, Finset.mem_singleton]
          exact StableHlo.devRef_ne_of_ne (by decide)))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- After the third pipeline, the flattened output's array is what it left. -/
theorem out4 (c : Dev nD) : (W4 m ρ c (Proc.devRef .tc main_v3) : S2048x1024.Idx → EReal) = out2 (V3 m ρ) c :=
  W4_arr m ρ c 2

/-- After the third pipeline, the input feature map is as launched. -/
theorem cat4 (c : Dev nD) : (W4 m ρ c (Proc.devRef .tc main_arg0) : S128x1024x16x16.Idx → EReal) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- At the last boundary the result buffer holds the tail of the feature map and the third pipeline's array. -/
theorem res5 (c : Dev nD) :
    (W5 m ρ c (Proc.devRef .tc main_v11) : S128x2048x16x16.Idx → EReal)
      = tail (m ((c : Thread nD τ).loc main_arg0)) (out2 (V3 m ρ) c) := by
  rw [← out4, ← cat4 m ρ c]
  show StableHlo.after hostOps3 (W4 m ρ c) (Proc.devRef .tc main_v11) = _
  after_results
  rfl

/-! ## The stages at an index, from the launch arguments -/

/-- The projected query's array, entering the second pipeline. -/
theorem q1_apply (c : Dev nD) (r : Fin 16) (e : Fin 2048) :
    qA (V1 m ρ) c (ix2 r e) = Cert.Spec.qproj (queryF m c) (winF m c) r e := by
  rw [q1, K0.out0_apply]
  rfl

/-- The combined rows the second pipeline leaves. -/
theorem comb_apply (c : Dev nD) (n : Fin 128) (r : Fin 16) (e : Fin 4096) :
    out1 (V1 m ρ) c (ix3 n r e)
      = Cert.Spec.combined (Cert.Spec.qproj (queryF m c) (winF m c)) (ctxF m c n) r e := by
  rw [K1.out1_apply]
  have hq : (fun r' d => qA (V1 m ρ) c (ix2 r' d)) = Cert.Spec.qproj (queryF m c) (winF m c) :=
    funext fun r' => funext fun d => q1_apply m ρ c r' d
  have hc : (fun d l => ctxA (V1 m ρ) c (ix3 n d l)) = ctxF m c n := by
    funext d l; rw [ctx1]; rfl
  rw [hq, hc]

/-- The output entries the third pipeline leaves, at the flattened row of (n, r). -/
theorem out_apply (c : Dev nD) (n : Fin 128) (r : Fin 16) (o : Fin 1024) :
    out2 (V3 m ρ) c (ix2 (flatRow n r) o)
      = Cert.Spec.proj (Cert.Spec.combined (Cert.Spec.qproj (queryF m c) (winF m c)) (ctxF m c n) r) (woutF m c) o := by
  rw [K2.out2_apply]
  have h1 : (fun e => combFlatA (V3 m ρ) c (ix2 (flatRow n r) e))
      = Cert.Spec.combined (Cert.Spec.qproj (queryF m c) (winF m c)) (ctxF m c n) r := by
    funext e; rw [flat3, flat_apply, comb_apply]
  have h2 : (fun o' e => woutA (V3 m ρ) c (ix2 o' e)) = woutF m c := by
    funext o' e; rw [wout3]; rfl
  rw [h1, h2]

/-- THE KERNEL'S RESULT at (n, ch, h, w): the specification's result of the launch arguments. -/
theorem result_apply (c : Dev nD) (n : Fin 128) (ch : Fin 2048) (h w : Fin 16) :
    (W5 m ρ c (Proc.devRef .tc main_v11) : S128x2048x16x16.Idx → EReal) (ix4 n ch h w)
      = Cert.Spec.result (catF m c) (ctxF m c) (queryF m c) (winF m c) (woutF m c) n ch h w := by
  rw [res5, tail_apply]
  unfold Cert.Spec.result
  by_cases hc : ch.val < 1024
  · rw [dif_pos hc, dif_pos hc]; rfl
  · rw [dif_neg hc, dif_neg hc, out_apply]

end Cert.KernelIdeal.KValue

end
-- ==== Proof.RefStages.lean ====
/-
  The reference's @main as a composition of named stages, each a function of the stage before it, in the
  order the program computes them: the context with its last two axes swapped; the query broadcast over the
  batch and projected; the scores; the softmax (row maximum from −∞, shifted exponentials, their row sums,
  the quotient); the mix; the combined rows; the output entries under tanh; the 4 × 4 map of query rows per
  channel; the two index vectors (16 pixels to 4 rows, by floored division of 4·i by 16, with the wrap of a
  negative index); the two gathers that spread the 4 × 4 map over 16 × 16 pixels; and the concatenation with
  the input feature map. Each stage is the printed operation applied to its operands, nothing more: the
  equations that read a stage at an index live in the modules that import this one.
-/
import proofs.«166487_j65060164600030_1_alg».proof.ReferenceIdeal

noncomputable section

namespace Cert.ReferenceIdeal.Stages

open Idealize.ShloMosaic Idealize.SL.Sem
open Cert.ReferenceIdeal Cert.ReferenceIdeal.Facts₀

variable {F : FTy → Type} [FloatOps F] [Facts₀]

/-- Buffer contents of a given shape and element type. -/
abbrev C (F : FTy → Type) (S : Shape) (e : EltTy) : Type := (⟨S, e⟩ : BufTy).Contents (Elt F)

/-- The context with axes 1 and 2 swapped: ctxT[n, l, d] = context[n, d, l]. -/
def ctxT (a1 : C F S128x2048x512 .f32) : C F S128x512x2048 .f32 :=
  transpose S128x512x2048 [0, 2, 1] a1 transposes_S128x2048x512_S128x512x2048_0_2_1

/-- The query broadcast over the batch. -/
def queryB (a2 : C F S1x16x2048 .f32) : C F S128x16x2048 .f32 :=
  broadcastInDim S128x16x2048 ![0, 1, 2] bcast_S1x16x2048_S128x16x2048_0_1_2 a2

/-- The projected query, per batch element. -/
def qOf (a2 : C F S1x16x2048 .f32) (a3 : C F S2048x2048 .f32) : C F S128x16x2048 .f32 :=
  Host.dotGeneral dot_S128x16x2048_S2048x2048_S128x16x2048_2_1_01_0_n_n none (queryB a2) a3

/-- The scores. -/
def scoresOf (q : C F S128x16x2048 .f32) (cT : C F S128x512x2048 .f32) : C F S128x16x512 .f32 :=
  Host.dotGeneral dot_S128x16x2048_S128x512x2048_S128x16x512_2_2_1_1_0_0 none q cT

/-- The −∞ scalar both reductions of the softmax start from. -/
def negInfS : C F S_ .f32 := constant S_ .f32 0xFF800000#32

/-- A row's maximum: the reduction from −∞, joined once more with −∞. -/
def rowMaxOf (s : C F S128x16x512 .f32) : C F S128x16 .f32 :=
  maximumf (broadcastInDim S128x16 ![] bcast_S_S128x16 (negInfS (F := F)))
    (Host.reduce FloatOps.maximumf s (negInfS (F := F)) reducesTo_S128x16x512_S128x16_d2 h_S_)

/-- A per-row value spread back over the row. -/
def spread (v : C F S128x16 .f32) : C F S128x16x512 .f32 :=
  broadcastInDim S128x16x512 ![0, 1, 2] bcast_S128x16x1_S128x16x512_0_1_2
    (broadcastInDim S128x16x1 ![0, 1] bcast_S128x16_S128x16x1_0_1 v)

/-- The shifted exponentials. -/
def expdOf (s : C F S128x16x512 .f32) : C F S128x16x512 .f32 :=
  Host.exp (subf s (spread (rowMaxOf s)))

/-- The zero scalar the row sum starts from. -/
def zeroS : C F S_ .f32 := constant S_ .f32 0x00000000#32

/-- The softmax weights. -/
def softmaxOf (s : C F S128x16x512 .f32) : C F S128x16x512 .f32 :=
  Host.divf (expdOf s)
    (spread (Host.reduceAdd (expdOf s) (zeroS (F := F)) reducesTo_S128x16x512_S128x16_d2 h_S_))

/-- The mix. -/
def mixOf (w : C F S128x16x512 .f32) (cT : C F S128x512x2048 .f32) : C F S128x16x2048 .f32 :=
  Host.dotGeneral dot_S128x16x512_S128x512x2048_S128x16x2048_2_1_1_2_0_0 none w cT

/-- The combined rows: the mix, then the projected query. -/
def combOf (mx : C F S128x16x2048 .f32) (q : C F S128x16x2048 .f32) : C F S128x16x4096 .f32 :=
  concatenate S128x16x4096 2 [⟨S128x16x2048, mx⟩, ⟨S128x16x2048, q⟩] concatenates_S128x16x2048_S128x16x2048_S128x16x4096_d2

/-- The output entries. -/
def outOf (comb : C F S128x16x4096 .f32) (a4 : C F S1024x4096 .f32) : C F S128x16x1024 .f32 :=
  Host.tanh (Host.dotGeneral dot_S128x16x4096_S1024x4096_S128x16x1024_2_1_01_0_n_n none comb a4)

/-- The 4 × 4 map of query rows, per batch element and channel. -/
def amapOf (out : C F S128x16x1024 .f32) : C F S128x1024x4x4 .f32 :=
  shapeCast S128x1024x4x4 (transpose S128x1024x16 [0, 2, 1] out transposes_S128x16x1024_S128x1024x16_0_2_1)
    shapeCasts_S128x1024x16_S128x1024x4x4

/-- A scalar integer spread over the 16 pixels. -/
def splat16 (k : BitVec 32) : C F S16 .i32 := broadcastInDim S16 ![] bcast_S_S16 (constantI S_ 32 k)

/-- 4·i for the 16 pixels. -/
def fourI : C F S16 .i32 := muli (iotaInDim S16 32 0) (splat16 (F := F) 4#32)

/-- The floored division of a vector of 16 integers by a scalar, as jnp spells it: the truncated quotient,
    less one where the signs differ and the remainder is not zero. -/
def floorDiv (x : C F S16 .i32) (y : C F S_ .i32) : C F S16 .i32 :=
  select
    (andi (cmpi .ne (signi x) (broadcastInDim S16 ![] bcast_S_S16 (signi (id y))))
          (cmpi .ne (Host.remsi x (broadcastInDim S16 ![] bcast_S_S16 (id y))) (splat16 (F := F) 0#32)))
    (subi (Host.divsi x (broadcastInDim S16 ![] bcast_S_S16 (id y))) (splat16 (F := F) 1#32))
    (Host.divsi x (broadcastInDim S16 ![] bcast_S_S16 (id y)))

/-- The pixel-to-row index vector: ⌊4·i / 16⌋, a negative one wrapped by 4. -/
def rowIdx : C F S16 .i32 :=
  select (cmpi .slt (floorDiv (fourI (F := F)) (constantI S_ 32 16#32)) (splat16 (F := F) 0#32))
    (addi (floorDiv (fourI (F := F)) (constantI S_ 32 16#32)) (splat16 (F := F) 4#32))
    (floorDiv (fourI (F := F)) (constantI S_ 32 16#32))

/-- The index vector as the one-column table a gather takes. -/
def rowIdxCol : C F S16x1 .i32 := broadcastInDim S16x1 ![0] bcast_S16_S16x1_0 (rowIdx (F := F))

/-- The map spread over the pixels: rows gathered along axis 2, then columns along axis 3. -/
def upOf (amap : C F S128x1024x4x4 .f32) : C F S128x1024x16x16 .f32 :=
  Host.gather gather_S128x1024x16x4_S16x1_S128x1024x16x16_012_3_n_n_3_1_1281024161
    (Host.gather gather_S128x1024x4x4_S16x1_S128x1024x16x4_013_2_n_n_2_1_128102414 amap (rowIdxCol (F := F)))
    (rowIdxCol (F := F))

/-- The input feature map followed, along the channels, by the spread map. -/
def catOf (a0 : C F S128x1024x16x16 .f32) (up : C F S128x1024x16x16 .f32) : C F S128x2048x16x16 .f32 :=
  concatenate S128x2048x16x16 1 [⟨S128x1024x16x16, a0⟩, ⟨S128x1024x16x16, up⟩] concatenates_S128x1024x16x16_S128x1024x16x16_S128x2048x16x16_d1

/-- The reference's result as the composition of its stages. -/
def refVal (a0 : C F S128x1024x16x16 .f32) (a1 : C F S128x2048x512 .f32) (a2 : C F S1x16x2048 .f32)
    (a3 : C F S2048x2048 .f32) (a4 : C F S1024x4096 .f32) : C F S128x2048x16x16 .f32 :=
  catOf a0 (upOf (amapOf (outOf
    (combOf (mixOf (softmaxOf (scoresOf (qOf a2 a3) (ctxT a1))) (ctxT a1)) (qOf a2 a3)) a4)))

end Cert.ReferenceIdeal.Stages

end
-- ==== Proof.RRun.lean ====
/-
  The reference program's run, read back: its @main is a straight line of host operations once the two calls of
  the floored division (each with its inner select) are unfolded at their call sites; every weakly fair execution
  ends with the result buffer at the composition of the stages and the arguments as launched.
-/
import proofs.«166487_j65060164600030_1_alg».proof.Proof.Gen.ReferenceIdeal
import proofs.«166487_j65060164600030_1_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 87 operations in order, the two calls of the floored division unfolded at their call sites: each is
    sixteen operations over the call's own buffers followed by the inner select, whose result buffer is the
    call's (%24, %28). -/
abbrev ops : List (HloOp τ sig (Elt F)) :=
  [ unary main_arg1 main_v0 ((transpose S128x512x2048 [0, 2, 1] · transposes_S128x2048x512_S128x512x2048_0_2_1) : (⟨S128x2048x512, .f32⟩ : BufTy).Contents (Elt F) → (⟨S128x512x2048, .f32⟩ : BufTy).Contents (Elt F)),
    unary main_arg2 main_v1 (broadcastInDim S128x16x2048 ![0, 1, 2] bcast_S1x16x2048_S128x16x2048_0_1_2 : (⟨S1x16x2048, .f32⟩ : BufTy).Contents (Elt F) → (⟨S128x16x2048, .f32⟩ : BufTy).Contents (Elt F)),
    binary main_v1 main_arg3 main_v2 ((fun l r => Host.dotGeneral dot_S128x16x2048_S2048x2048_S128x16x2048_2_1_01_0_n_n none l r) : (⟨S128x16x2048, .f32⟩ : BufTy).Contents (Elt F) → (⟨S2048x2048, .f32⟩ : BufTy).Contents (Elt F) → (⟨S128x16x2048, .f32⟩ : BufTy).Contents (Elt F)),
    binary main_v2 main_v0 main_v3 ((fun l r => Host.dotGeneral dot_S128x16x2048_S128x512x2048_S128x16x512_2_2_1_1_0_0 none l r) : (⟨S128x16x2048, .f32⟩ : BufTy).Contents (Elt F) → (⟨S128x512x2048, .f32⟩ : BufTy).Contents (Elt F) → (⟨S128x16x512, .f32⟩ : BufTy).Contents (Elt F)),
    nullary main_cst (constant S_ .f32 0xFF800000#32),
    binary main_v3 main_cst main_v4 ((fun x v => Host.reduce FloatOps.maximumf x v reducesTo_S128x16x512_S128x16_d2 h_S_) : (⟨S128x16x512, .f32⟩ : BufTy).Contents (Elt F) → (⟨S_, .f32⟩ : BufTy).Contents (Elt F) → (⟨S128x16, .f32⟩ : BufTy).Contents (Elt F)),
    nullary main_cst_0 (constant S_ .f32 0xFF800000#32),
    unary main_cst_0 main_v5 (broadcastInDim S128x16 ![] bcast_S_S128x16 : (⟨S_, .f32⟩ : BufTy).Contents (Elt F) → (⟨S128x16, .f32⟩ : BufTy).Contents (Elt F)),
    binary main_v5 main_v4 main_v6 (maximumf : (⟨S128x16, .f32⟩ : BufTy).Contents (Elt F) → (⟨S128x16, .f32⟩ : BufTy).Contents (Elt F) → (⟨S128x16, .f32⟩ : BufTy).Contents (Elt F)),
    unary main_v6 main_v7 (broadcastInDim S128x16x1 ![0, 1] bcast_S128x16_S128x16x1_0_1 : (⟨S128x16, .f32⟩ : BufTy).Contents (Elt F) → (⟨S128x16x1, .f32⟩ : BufTy).Contents (Elt F)),
    unary main_v7 main_v8 (broadcastInDim S128x16x512 ![0, 1, 2] bcast_S128x16x1_S128x16x512_0_1_2 : (⟨S128x16x1, .f32⟩ : BufTy).Contents (Elt F) → (⟨S128x16x512, .f32⟩ : BufTy).Contents (Elt F)),
    binary main_v3 main_v8 main_v9 (subf : (⟨S128x16x512, .f32⟩ : BufTy).Contents (Elt F) → (⟨S128x16x512, .f32⟩ : BufTy).Contents (Elt F) → (⟨S128x16x512, .f32⟩ : BufTy).Contents (Elt F)),
    unary main_v9 main_v10 (Host.exp : (⟨S128x16x512, .f32⟩ : BufTy).Contents (Elt F) → (⟨S128x16x512, .f32⟩ : BufTy).Contents (Elt F)),
    nullary main_cst_1 (constant S_ .f32 0x00000000#32),
    binary main_v10 main_cst_1 main_v11 ((fun x v => Host.reduceAdd x v reducesTo_S128x16x512_S128x16_d2 h_S_) : (⟨S128x16x512, .f32⟩ : BufTy).Contents (Elt F) → (⟨S_, .f32⟩ : BufTy).Contents (Elt F) → (⟨S128x16, .f32⟩ : BufTy).Contents (Elt F)),
    unary main_v11 main_v12 (broadcastInDim S128x16x1 ![0, 1] bcast_S128x16_S128x16x1_0_1 : (⟨S128x16, .f32⟩ : BufTy).Contents (Elt F) → (⟨S128x16x1, .f32⟩ : BufTy).Contents (Elt F)),
    unary main_v12 main_v13 (broadcastInDim S128x16x512 ![0, 1, 2] bcast_S128x16x1_S128x16x512_0_1_2 : (⟨S128x16x1, .f32⟩ : BufTy).Contents (Elt F) → (⟨S128x16x512, .f32⟩ : BufTy).Contents (Elt F)),
    binary main_v10 main_v13 main_v14 (Host.divf : (⟨S128x16x512, .f32⟩ : BufTy).Contents (Elt F) → (⟨S128x16x512, .f32⟩ : BufTy).Contents (Elt F) → (⟨S128x16x512, .f32⟩ : BufTy).Contents (Elt F)),
    binary main_v14 main_v0 main_v15 ((fun l r => Host.dotGeneral dot_S128x16x512_S128x512x2048_S128x16x2048_2_1_1_2_0_0 none l r) : (⟨S128x16x512, .f32⟩ : BufTy).Contents (Elt F) → (⟨S128x512x2048, .f32⟩ : BufTy).Contents (Elt F) → (⟨S128x16x2048, .f32⟩ : BufTy).Contents (Elt F)),
    binary main_v15 main_v2 main_v16 ((fun a b => concatenate S128x16x4096 2 [⟨S128x16x2048, a⟩, ⟨S128x16x2048, b⟩] concatenates_S128x16x2048_S128x16x2048_S128x16x4096_d2) : (⟨S128x16x2048, .f32⟩ : BufTy).Contents (Elt F) → (⟨S128x16x2048, .f32⟩ : BufTy).Contents (Elt F) → (⟨S128x16x4096, .f32⟩ : BufTy).Contents (Elt F)),
    binary main_v16 main_arg4 main_v17 ((fun l r => Host.dotGeneral dot_S128x16x4096_S1024x4096_S128x16x1024_2_1_01_0_n_n none l r) : (⟨S128x16x4096, .f32⟩ : BufTy).Contents (Elt F) → (⟨S1024x4096, .f32⟩ : BufTy).Contents (Elt F) → (⟨S128x16x1024, .f32⟩ : BufTy).Contents (Elt F)),
    unary main_v17 main_v18 (Host.tanh : (⟨S128x16x1024, .f32⟩ : BufTy).Contents (Elt F) → (⟨S128x16x1024, .f32⟩ : BufTy).Contents (Elt F)),
    unary main_v18 main_v19 ((transpose S128x1024x16 [0, 2, 1] · transposes_S128x16x1024_S128x1024x16_0_2_1) : (⟨S128x16x1024, .f32⟩ : BufTy).Contents (Elt F) → (⟨S128x1024x16, .f32⟩ : BufTy).Contents (Elt F)),
    reshape main_v19 main_v20 rfl shapeCasts_S128x1024x16_S128x1024x4x4,
    nullary main_v21 (iotaInDim S16 32 0),
    nullary main_c (constantI S_ 32 4#32),
    unary main_c main_v22 (broadcastInDim S16 ![] bcast_S_S16 : (⟨S_, .i32⟩ : BufTy).Contents (Elt F) → (⟨S16, .i32⟩ : BufTy).Contents (Elt F)),
    binary main_v21 main_v22 main_v23 (muli : (⟨S16, .i32⟩ : BufTy).Contents (Elt F) → (⟨S16, .i32⟩ : BufTy).Contents (Elt F) → (⟨S16, .i32⟩ : BufTy).Contents (Elt F)),
    nullary main_c_2 (constantI S_ 32 16#32),
    TRef.unary (.of main_c_2) main_call0.v0 id,
    TRef.unary main_call0.v0 main_call0.v1 (broadcastInDim S16 ![] bcast_S_S16),
    TRef.binary (.of main_v23) main_call0.v1 main_call0.v2 Host.divsi,
    TRef.unary (.of main_v23) main_call0.v3 signi,
    TRef.unary main_call0.v0 main_call0.v4 signi,
    TRef.unary main_call0.v4 main_call0.v5 (broadcastInDim S16 ![] bcast_S_S16),
    TRef.binary main_call0.v3 main_call0.v5 main_call0.v6 (cmpi .ne),
    TRef.unary main_call0.v0 main_call0.v7 (broadcastInDim S16 ![] bcast_S_S16),
    TRef.binary (.of main_v23) main_call0.v7 main_call0.v8 Host.remsi,
    TRef.nullary main_call0.c (constantI S_ 32 0#32),
    TRef.unary main_call0.c main_call0.v9 (broadcastInDim S16 ![] bcast_S_S16),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16 ![] bcast_S_S16),
    TRef.binary main_call0.v2 main_call0.v12 main_call0.v13 subi,
    TRef.ternary main_call0.v11 main_call0.v13 main_call0.v2 main_call0.call0.v0 select,
    nullary main_v25 (iotaInDim S16 32 0),
    nullary main_c_3 (constantI S_ 32 4#32),
    unary main_c_3 main_v26 (broadcastInDim S16 ![] bcast_S_S16 : (⟨S_, .i32⟩ : BufTy).Contents (Elt F) → (⟨S16, .i32⟩ : BufTy).Contents (Elt F)),
    binary main_v25 main_v26 main_v27 (muli : (⟨S16, .i32⟩ : BufTy).Contents (Elt F) → (⟨S16, .i32⟩ : BufTy).Contents (Elt F) → (⟨S16, .i32⟩ : BufTy).Contents (Elt F)),
    nullary main_c_4 (constantI S_ 32 16#32),
    TRef.unary (.of main_c_4) main_call1.v0 id,
    TRef.unary main_call1.v0 main_call1.v1 (broadcastInDim S16 ![] bcast_S_S16),
    TRef.binary (.of main_v27) main_call1.v1 main_call1.v2 Host.divsi,
    TRef.unary (.of main_v27) main_call1.v3 signi,
    TRef.unary main_call1.v0 main_call1.v4 signi,
    TRef.unary main_call1.v4 main_call1.v5 (broadcastInDim S16 ![] bcast_S_S16),
    TRef.binary main_call1.v3 main_call1.v5 main_call1.v6 (cmpi .ne),
    TRef.unary main_call1.v0 main_call1.v7 (broadcastInDim S16 ![] bcast_S_S16),
    TRef.binary (.of main_v27) main_call1.v7 main_call1.v8 Host.remsi,
    TRef.nullary main_call1.c (constantI S_ 32 0#32),
    TRef.unary main_call1.c main_call1.v9 (broadcastInDim S16 ![] bcast_S_S16),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16 ![] bcast_S_S16),
    TRef.binary main_call1.v2 main_call1.v12 main_call1.v13 subi,
    TRef.ternary main_call1.v11 main_call1.v13 main_call1.v2 main_call1.call0.v0 select,
    nullary main_c_5 (constantI S_ 32 0#32),
    unary main_c_5 main_v29 (broadcastInDim S16 ![] bcast_S_S16 : (⟨S_, .i32⟩ : BufTy).Contents (Elt F) → (⟨S16, .i32⟩ : BufTy).Contents (Elt F)),
    binary main_v24 main_v29 main_v30 (cmpi .slt : (⟨S16, .i32⟩ : BufTy).Contents (Elt F) → (⟨S16, .i32⟩ : BufTy).Contents (Elt F) → (⟨S16, .i1⟩ : BufTy).Contents (Elt F)),
    nullary main_c_6 (constantI S_ 32 4#32),
    unary main_c_6 main_v31 (broadcastInDim S16 ![] bcast_S_S16 : (⟨S_, .i32⟩ : BufTy).Contents (Elt F) → (⟨S16, .i32⟩ : BufTy).Contents (Elt F)),
    binary main_v24 main_v31 main_v32 (addi : (⟨S16, .i32⟩ : BufTy).Contents (Elt F) → (⟨S16, .i32⟩ : BufTy).Contents (Elt F) → (⟨S16, .i32⟩ : BufTy).Contents (Elt F)),
    ternary main_v30 main_v32 main_v24 main_v33 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v33 main_v34 (broadcastInDim S16x1 ![0] bcast_S16_S16x1_0 : (⟨S16, .i32⟩ : BufTy).Contents (Elt F) → (⟨S16x1, .i32⟩ : BufTy).Contents (Elt F)),
    binary main_v20 main_v34 main_v35 ((fun x i => Host.gather gather_S128x1024x4x4_S16x1_S128x1024x16x4_013_2_n_n_2_1_128102414 x i) : (⟨S128x1024x4x4, .f32⟩ : BufTy).Contents (Elt F) → (⟨S16x1, .i32⟩ : BufTy).Contents (Elt F) → (⟨S128x1024x16x4, .f32⟩ : BufTy).Contents (Elt F)),
    nullary main_c_7 (constantI S_ 32 0#32),
    unary main_c_7 main_v36 (broadcastInDim S16 ![] bcast_S_S16 : (⟨S_, .i32⟩ : BufTy).Contents (Elt F) → (⟨S16, .i32⟩ : BufTy).Contents (Elt F)),
    binary main_v28 main_v36 main_v37 (cmpi .slt : (⟨S16, .i32⟩ : BufTy).Contents (Elt F) → (⟨S16, .i32⟩ : BufTy).Contents (Elt F) → (⟨S16, .i1⟩ : BufTy).Contents (Elt F)),
    nullary main_c_8 (constantI S_ 32 4#32),
    unary main_c_8 main_v38 (broadcastInDim S16 ![] bcast_S_S16 : (⟨S_, .i32⟩ : BufTy).Contents (Elt F) → (⟨S16, .i32⟩ : BufTy).Contents (Elt F)),
    binary main_v28 main_v38 main_v39 (addi : (⟨S16, .i32⟩ : BufTy).Contents (Elt F) → (⟨S16, .i32⟩ : BufTy).Contents (Elt F) → (⟨S16, .i32⟩ : BufTy).Contents (Elt F)),
    ternary main_v37 main_v39 main_v28 main_v40 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v40 main_v41 (broadcastInDim S16x1 ![0] bcast_S16_S16x1_0 : (⟨S16, .i32⟩ : BufTy).Contents (Elt F) → (⟨S16x1, .i32⟩ : BufTy).Contents (Elt F)),
    binary main_v35 main_v41 main_v42 ((fun x i => Host.gather gather_S128x1024x16x4_S16x1_S128x1024x16x16_012_3_n_n_3_1_1281024161 x i) : (⟨S128x1024x16x4, .f32⟩ : BufTy).Contents (Elt F) → (⟨S16x1, .i32⟩ : BufTy).Contents (Elt F) → (⟨S128x1024x16x16, .f32⟩ : BufTy).Contents (Elt F)),
    binary main_arg0 main_v42 main_v43 ((fun a b => concatenate S128x2048x16x16 1 [⟨S128x1024x16x16, a⟩, ⟨S128x1024x16x16, b⟩] concatenates_S128x1024x16x16_S128x1024x16x16_S128x2048x16x16_d1) : (⟨S128x1024x16x16, .f32⟩ : BufTy).Contents (Elt F) → (⟨S128x1024x16x16, .f32⟩ : BufTy).Contents (Elt F) → (⟨S128x2048x16x16, .f32⟩ : BufTy).Contents (Elt F)) ]

set_option maxRecDepth 8192 in
/-- @main is that straight line: with the two functions' definitions unfolded at their calls and the records at
    their fields, both sides are the same chain of steps once sequencing is reassociated, which the free monad's
    bind does by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., binary_bufs_sub .., binary_bufs_sub .., unary_bufs_sub .., unary_bufs_sub .., reshape_bufs_sub ..,
    nullary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub ..⟩

/-- The concatenation of two blocks, with the blocks as plain arguments (so that an equation between blocks
    rewrites under it: in the list form the side condition's type mentions the blocks). -/
def cat2 {α : Type} (S : Shape) (d : Fin S.rank) (S1 S2 : Shape) (h : Shape.Concatenates [S1, S2] S d)
    (a : S1.Idx → α) (b : S2.Idx → α) : S.Idx → α := concatenate S d [⟨S1, a⟩, ⟨S2, b⟩] h

theorem cat2_def {α : Type} (S : Shape) (d : Fin S.rank) (S1 S2 : Shape) (a : S1.Idx → α) (b : S2.Idx → α)
    (h : Shape.Concatenates (List.map (fun p : (s : Shape) × (s.Idx → α) => p.1) [⟨S1, a⟩, ⟨S2, b⟩]) S d) :
    concatenate S d [⟨S1, a⟩, ⟨S2, b⟩] h = cat2 S d S1 S2 h a b := rfl

/-- Contents written through a typed reference and read back through it are the contents. -/
theorem ofBuf_toBuf {T : BufTy} (x : TRef sig T) (v : T.Contents (Elt F)) : x.ofBuf (x.toBuf v) = v := by
  obtain ⟨r, h, h1, h2⟩ := x
  subst h
  rfl

set_option maxRecDepth 8192 in
set_option maxHeartbeats 1000000 in
/-- The result buffer after the line: each operation's result read at its own buffer is its function of its
    operands' contents and at any other buffer what was there; composed from the last operation back to the
    arguments this is the stages' composition, term for term (the two index vectors, computed by the two calls
    over different buffers, are the same expression). -/
theorem out_eq (V : Valuation τ sig (Elt F)) :
    after ops V (main_v43 : DevRef τ sig)
      = Stages.refVal (V (main_arg0 : DevRef τ sig)) (V (main_arg1 : DevRef τ sig)) (V (main_arg2 : DevRef τ sig))
          (V (main_arg3 : DevRef τ sig)) (V (main_arg4 : DevRef τ sig)) := by
  simp (disch := decide) only [after_cons, after_nil, nullary_result', unary_result', binary_result', ternary_result',
    reshape_result', nullary_result_ne', unary_result_ne', binary_result_ne', ternary_result_ne', reshape_result_ne',
    cat2_def, ofBuf_toBuf]
  rfl

/-! No operation writes an argument's buffer. -/

set_option maxRecDepth 8192 in
theorem arg0_eq (V : Valuation τ sig (Elt F)) :
    after ops V (main_arg0 : DevRef τ sig) = V (main_arg0 : DevRef τ sig) := by after_results_simp

set_option maxRecDepth 8192 in
theorem arg1_eq (V : Valuation τ sig (Elt F)) :
    after ops V (main_arg1 : DevRef τ sig) = V (main_arg1 : DevRef τ sig) := by after_results_simp

set_option maxRecDepth 8192 in
theorem arg2_eq (V : Valuation τ sig (Elt F)) :
    after ops V (main_arg2 : DevRef τ sig) = V (main_arg2 : DevRef τ sig) := by after_results_simp

set_option maxRecDepth 8192 in
theorem arg3_eq (V : Valuation τ sig (Elt F)) :
    after ops V (main_arg3 : DevRef τ sig) = V (main_arg3 : DevRef τ sig) := by after_results_simp

set_option maxRecDepth 8192 in
theorem arg4_eq (V : Valuation τ sig (Elt F)) :
    after ops V (main_arg4 : DevRef τ sig) = V (main_arg4 : DevRef τ sig) := by after_results_simp

/-- On every device, from any memory with zero counters: every weakly fair execution of @main terminates with the
    result at the stages' composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = Stages.refVal (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.HandRun

end
-- ==== Proof.RQ.lean ====
/-
  The reference's two first contractions read at an index: the projected query (the query broadcast over the
  batch against W_in, contracting the last axis of both) and the scores (the projected query against the
  context with its axes swapped, contracting the feature axis, batched over the batch element).
-/
import proofs.«166487_j65060164600030_1_alg».proof.Proof.RefStages
import proofs.«166487_j65060164600030_1_alg».proof.Proof.Spec
import Idealize.ShloMosaic.Lib.ValueIdx
import Idealize.ShloMosaic.Lib.Pipeline.Value
import Idealize.ShloMosaic.PureOps.Ideal.Laws

noncomputable section

namespace Cert.ReferenceIdeal.RQ

open Idealize.ShloMosaic Idealize.SL.Sem Idealize.ShloMosaic.ValueIdx
open Cert.ReferenceIdeal Cert.ReferenceIdeal.Facts₀ Cert.ReferenceIdeal.Stages

variable [Facts₀]

/-- The projected query at (n, r, e): Σ_d query[0, r, d] · W_in[e, d], the same for every batch element n. -/
theorem qOf_apply (a2 : C Ideal S1x16x2048 .f32) (a3 : C Ideal S2048x2048 .f32) (n : Fin 128) (r : Fin 16) (e : Fin 2048) :
    qOf a2 a3 (ix3 n r e)
      = Cert.Spec.qproj (fun r' d => a2 (ix3 (0 : Fin 1) r' d)) (fun e' d => a3 (ix2 e' d)) r e := by
  -- the contraction at an index is the sum over its one contracted axis, re-indexed by that axis's coordinate
  unfold qOf Cert.Spec.qproj
  refine (Ideal.dotGeneral_apply dot_S128x16x2048_S2048x2048_S128x16x2048_2_1_01_0_n_n none _ (queryB a2) a3 (ix3 n r e)).trans ?_
  rw [← Equiv.sum_comp (contrEquiv1 dot_S128x16x2048_S2048x2048_S128x16x2048_2_1_01_0_n_n 2048 rfl rfl).symm]
  refine Finset.sum_congr rfl fun c _ => ?_
  have c2 := contrEquiv1_symm_val dot_S128x16x2048_S2048x2048_S128x16x2048_2_1_01_0_n_n 2048 rfl rfl c
  -- the left operand is read at (n, r, c), the right one at (e, c)
  have l2 : (dot_S128x16x2048_S2048x2048_S128x16x2048_2_1_01_0_n_n).lhsIdx (ix3 n r e) ((contrEquiv1 dot_S128x16x2048_S2048x2048_S128x16x2048_2_1_01_0_n_n 2048 rfl rfl).symm c) = ix3 n r c := by
    funext ax; apply Fin.ext
    match ax with
    | ⟨0, _⟩ => simp [DotDims.lhsIdx, dot_S128x16x2048_S2048x2048_S128x16x2048_2_1_01_0_n_n]; rfl
    | ⟨1, _⟩ => simp [DotDims.lhsIdx, dot_S128x16x2048_S2048x2048_S128x16x2048_2_1_01_0_n_n]; rfl
    | ⟨2, _⟩ => simp [DotDims.lhsIdx, dot_S128x16x2048_S2048x2048_S128x16x2048_2_1_01_0_n_n]; exact c2
  have r2 : (dot_S128x16x2048_S2048x2048_S128x16x2048_2_1_01_0_n_n).rhsIdx (ix3 n r e) ((contrEquiv1 dot_S128x16x2048_S2048x2048_S128x16x2048_2_1_01_0_n_n 2048 rfl rfl).symm c) = ix2 e c := by
    funext ax; apply Fin.ext
    match ax with
    | ⟨0, _⟩ => simp [DotDims.rhsIdx, dot_S128x16x2048_S2048x2048_S128x16x2048_2_1_01_0_n_n]; rfl
    | ⟨1, _⟩ => simp [DotDims.rhsIdx, dot_S128x16x2048_S2048x2048_S128x16x2048_2_1_01_0_n_n]; exact c2
  rw [l2, r2]
  congr 1
  -- the broadcast query at (n, r, c) is the query at (0, r, c): the batch axis has extent one
  unfold queryB
  refine broadcastInDim_apply _ _ a2 (ix3 n r c) (ix3 (0 : Fin 1) r c) ?_
  intro a
  match a with
  | ⟨0, _⟩ => rfl
  | ⟨1, _⟩ => rfl
  | ⟨2, _⟩ => rfl

/-- The scores at (n, r, l): Σ_d q[n, r, d] · context[n, d, l]. -/
theorem scoresOf_apply (q : C Ideal S128x16x2048 .f32) (a1 : C Ideal S128x2048x512 .f32) (n : Fin 128) (r : Fin 16) (l : Fin 512) :
    scoresOf q (ctxT a1) (ix3 n r l) = ∑ d : Fin 2048, q (ix3 n r d) * a1 (ix3 n d l) := by
  -- the batched contraction at an index is the sum over its one contracted axis, re-indexed by that axis's coordinate
  unfold scoresOf
  refine (Ideal.dotGeneral_apply dot_S128x16x2048_S128x512x2048_S128x16x512_2_2_1_1_0_0 none _ q (ctxT a1) (ix3 n r l)).trans ?_
  rw [← Equiv.sum_comp (contrEquiv1 dot_S128x16x2048_S128x512x2048_S128x16x512_2_2_1_1_0_0 2048 rfl rfl).symm]
  refine Finset.sum_congr rfl fun c _ => ?_
  have c2 := contrEquiv1_symm_val dot_S128x16x2048_S128x512x2048_S128x16x512_2_2_1_1_0_0 2048 rfl rfl c
  -- the left operand is read at (n, r, c), the right one at (n, l, c)
  have l2 : (dot_S128x16x2048_S128x512x2048_S128x16x512_2_2_1_1_0_0).lhsIdx (ix3 n r l) ((contrEquiv1 dot_S128x16x2048_S128x512x2048_S128x16x512_2_2_1_1_0_0 2048 rfl rfl).symm c) = ix3 n r c := by
    funext ax; apply Fin.ext
    match ax with
    | ⟨0, _⟩ => simp [DotDims.lhsIdx, dot_S128x16x2048_S128x512x2048_S128x16x512_2_2_1_1_0_0]; rfl
    | ⟨1, _⟩ => simp [DotDims.lhsIdx, dot_S128x16x2048_S128x512x2048_S128x16x512_2_2_1_1_0_0]; rfl
    | ⟨2, _⟩ => simp [DotDims.lhsIdx, dot_S128x16x2048_S128x512x2048_S128x16x512_2_2_1_1_0_0]; exact c2
  have r2 : (dot_S128x16x2048_S128x512x2048_S128x16x512_2_2_1_1_0_0).rhsIdx (ix3 n r l) ((contrEquiv1 dot_S128x16x2048_S128x512x2048_S128x16x512_2_2_1_1_0_0 2048 rfl rfl).symm c) = ix3 n l c := by
    funext ax; apply Fin.ext
    match ax with
    | ⟨0, _⟩ => simp [DotDims.rhsIdx, dot_S128x16x2048_S128x512x2048_S128x16x512_2_2_1_1_0_0]; rfl
    | ⟨1, _⟩ => simp [DotDims.rhsIdx, dot_S128x16x2048_S128x512x2048_S128x16x512_2_2_1_1_0_0]; rfl
    | ⟨2, _⟩ => simp [DotDims.rhsIdx, dot_S128x16x2048_S128x512x2048_S128x16x512_2_2_1_1_0_0]; exact c2
  rw [l2, r2]
  congr 1
  -- the swapped context at (n, l, c) is the context at (n, c, l)
  unfold ctxT
  refine transpose_apply _ a1 _ (ix3 n l c) (ix3 n c l) ?_
  intro b
  match b with
  | ⟨0, _⟩ => rfl
  | ⟨1, _⟩ => rfl
  | ⟨2, _⟩ => rfl

end Cert.ReferenceIdeal.RQ

end
-- ==== Proof.RSoftmax.lean ====
/-
  The reference's softmax read at an index: at (n, r, l) it is the softmax of row (n, r) of the scores at l —
  the row maximum is the fold of max from −∞ joined with −∞, the row sum starts from the zero word.
-/
import proofs.«166487_j65060164600030_1_alg».proof.Proof.RefStages
import proofs.«166487_j65060164600030_1_alg».proof.Proof.Spec
import Idealize.ShloMosaic.Lib.ValueIdx
import Idealize.ShloMosaic.Lib.Pipeline.Value
import Idealize.ShloMosaic.PureOps.Ideal.Laws

noncomputable section

namespace Cert.ReferenceIdeal.RSoftmax

open Idealize.ShloMosaic Idealize.SL.Sem Idealize.ShloMosaic.ValueIdx
open Cert.ReferenceIdeal Cert.ReferenceIdeal.Facts₀ Cert.ReferenceIdeal.Stages

variable [Facts₀]

/-- The reduction witness at the softmax's shapes, which names the inserted index. -/
theorem reduces_d2 : S128x16x512.Reduces [2] S128x16 := by decide

/-- Row (n, r) with the coordinate k inserted on the last axis is the index (n, r, k). -/
theorem lift_ix (n : Fin 128) (r : Fin 16) (k : Fin 512) :
    reduces_d2.lift (ix2 n r) k = ix3 n r k := by
  funext c
  match c with
  | ⟨0, _⟩ => exact Fin.ext rfl
  | ⟨1, _⟩ => exact Fin.ext rfl
  | ⟨2, _⟩ => exact Fin.ext rfl

/-- The −∞ scalar reads −∞ at its one index. -/
theorem negInfS_apply (i : S_.Idx) : negInfS (F := Ideal) i = Cert.Spec.negInf := rfl

/-- The zero scalar reads 0 at its one index. -/
theorem zeroS_apply (i : S_.Idx) : zeroS (F := Ideal) i = 0 := Ideal.ofBits_zero_f32

/-- A row's maximum at (n, r): the fold of max over the row from −∞, joined once more with −∞. -/
theorem rowMaxOf_apply (s : C Ideal S128x16x512 .f32) (n : Fin 128) (r : Fin 16) :
    rowMaxOf s (ix2 n r) = Cert.Spec.rowMax (fun l' => s (ix3 n r l')) := by
  unfold rowMaxOf Cert.Spec.rowMax
  refine (maximumf_apply _ _ _).trans ?_
  refine congrArg₂ max ?_ ?_
  · rfl
  · refine (Host.reduce_eq_fold_single (FloatOps.maximumf (F := Ideal) (φ := .f32)) s (negInfS (F := Ideal))
      reducesTo_S128x16x512_S128x16_d2 reduces_d2 h_S_ (ix2 n r)).trans ?_
    show (Finset.univ : Finset (Fin 512)).fold max Cert.Spec.negInf (s ∘ reduces_d2.lift (ix2 n r)) = _
    refine congrArg (Finset.fold max Cert.Spec.negInf · Finset.univ) ?_
    funext k
    exact congrArg s (lift_ix n r k)

/-- A per-row value spread over the row reads the row's value at every entry. -/
theorem spread_apply (v : C Ideal S128x16 .f32) (n : Fin 128) (r : Fin 16) (l : Fin 512) :
    spread v (ix3 n r l) = v (ix2 n r) := by
  unfold spread
  refine (broadcastInDim_apply _ _ _ (ix3 n r l) (ix3 n r (0 : Fin 1)) ?_).trans ?_
  · intro a
    match a with
    | ⟨0, _⟩ => rfl
    | ⟨1, _⟩ => rfl
    | ⟨2, _⟩ => rfl
  · refine broadcastInDim_apply _ _ _ (ix3 n r (0 : Fin 1)) (ix2 n r) ?_
    intro a
    match a with
    | ⟨0, _⟩ => rfl
    | ⟨1, _⟩ => rfl

/-- The shifted exponential at (n, r, l). -/
theorem expdOf_apply (s : C Ideal S128x16x512 .f32) (n : Fin 128) (r : Fin 16) (l : Fin 512) :
    expdOf s (ix3 n r l) = Cert.Spec.expd (fun l' => s (ix3 n r l')) l := by
  unfold expdOf Cert.Spec.expd
  show Ideal.exp (s (ix3 n r l) - spread (rowMaxOf s) (ix3 n r l)) = _
  rw [spread_apply, rowMaxOf_apply]

/-- The row sum of the shifted exponentials at (n, r). -/
theorem rowSum_apply (s : C Ideal S128x16x512 .f32) (n : Fin 128) (r : Fin 16) :
    Host.reduceAdd (expdOf s) (zeroS (F := Ideal)) reducesTo_S128x16x512_S128x16_d2 h_S_ (ix2 n r)
      = ∑ l' : Fin 512, Cert.Spec.expd (fun l'' => s (ix3 n r l'')) l' := by
  show Ideal.hostReduceAdd reducesTo_S128x16x512_S128x16_d2 (expdOf s) (zeroS (F := Ideal) (Shape.Idx.first h_S_)) (ix2 n r) = _
  refine (Ideal.hostReduceAdd_single reducesTo_S128x16x512_S128x16_d2 reduces_d2 (expdOf s) _ (ix2 n r)).trans ?_
  rw [zeroS_apply, zero_add]
  show ∑ k : Fin 512, expdOf s (reduces_d2.lift (ix2 n r) k) = _
  refine Finset.sum_congr rfl fun k _ => ?_
  rw [lift_ix, expdOf_apply]

/-- The softmax weights at (n, r, l). -/
theorem softmaxOf_apply (s : C Ideal S128x16x512 .f32) (n : Fin 128) (r : Fin 16) (l : Fin 512) :
    softmaxOf s (ix3 n r l) = Cert.Spec.softmax (fun l' => s (ix3 n r l')) l := by
  unfold softmaxOf Cert.Spec.softmax
  show Ideal.div (expdOf s (ix3 n r l)) (spread (F := Ideal) _ (ix3 n r l)) = _
  rw [spread_apply, rowSum_apply, expdOf_apply]

end Cert.ReferenceIdeal.RSoftmax

end
-- ==== Proof.RMix.lean ====
/-
  The reference's mix and combined rows read at an index: the mix contracts the weights' last axis with the
  swapped context's middle axis, batched over the batch element; the combined row is the mix on its first 2048
  entries and the projected query on its last 2048.
-/
import proofs.«166487_j65060164600030_1_alg».proof.Proof.RefStages
import proofs.«166487_j65060164600030_1_alg».proof.Proof.Spec
import Idealize.ShloMosaic.Lib.ValueIdx
import Idealize.ShloMosaic.Lib.Pipeline.Value
import Idealize.ShloMosaic.PureOps.Ideal.Laws
import Idealize.ShloMosaic.Lib.StackMember

noncomputable section

namespace Cert.ReferenceIdeal.RMix

open Idealize.ShloMosaic Idealize.SL.Sem Idealize.ShloMosaic.ValueIdx
open Cert.ReferenceIdeal Cert.ReferenceIdeal.Facts₀ Cert.ReferenceIdeal.Stages

variable [Facts₀]

/-- The mix at (n, r, d): Σ_l w[n, r, l] · context[n, d, l]. -/
theorem mixOf_apply (w : C Ideal S128x16x512 .f32) (a1 : C Ideal S128x2048x512 .f32) (n : Fin 128) (r : Fin 16) (d : Fin 2048) :
    mixOf w (ctxT a1) (ix3 n r d) = ∑ l : Fin 512, w (ix3 n r l) * a1 (ix3 n d l) := by
  unfold mixOf
  -- the batched contraction at (n, r, d) is the sum over the contracted coordinate l
  refine (StackMember.dotGeneral_stack_apply (G := 128) (m := 16) (n := 2048) (k := 512)
    dot_S128x16x512_S128x512x2048_S128x16x2048_2_1_1_2_0_0_wf none w (ctxT a1) n r d).trans ?_
  refine Finset.sum_congr rfl fun l _ => ?_
  -- the swapped context at (n, l, d) is the context at (n, d, l)
  refine congrArg (fun x => w (ix3 n r l) * x) ?_
  unfold ctxT
  exact transpose_apply _ a1 _ (ix3 n l d) (ix3 n d l) (by
    intro b
    match b with
    | ⟨0, _⟩ => rfl
    | ⟨1, _⟩ => rfl
    | ⟨2, _⟩ => rfl)

/-- The combined row at (n, r, e): the mix below 2048, the projected query from 2048 on. -/
theorem combOf_apply (mx q : C Ideal S128x16x2048 .f32) (n : Fin 128) (r : Fin 16) (e : Fin 4096) :
    combOf mx q (ix3 n r e)
      = if h : e.val < 2048 then mx (ix3 n r (⟨e.val, h⟩ : Fin 2048))
        else q (ix3 n r (⟨e.val - 2048, by have := e.isLt; omega⟩ : Fin 2048)) := by
  unfold combOf
  by_cases h : e.val < 2048
  · -- below 2048 the entry lies in the first piece, at the same coordinates
    rw [dif_pos h]
    exact concatenate_pair_apply_left (2 : Fin 3) mx q _ (ix3 n r e) rfl (ix3 n r (⟨e.val, h⟩ : Fin 2048)) (by
      intro b
      match b with
      | ⟨0, _⟩ => rfl
      | ⟨1, _⟩ => rfl
      | ⟨2, _⟩ => rfl)
  · -- from 2048 on it lies in the second piece, its last coordinate 2048 less
    rw [dif_neg h]
    exact concatenate_pair_apply_right (2 : Fin 3) mx q _ (ix3 n r e) rfl rfl
      (ix3 n r (⟨e.val - 2048, by have := e.isLt; omega⟩ : Fin 2048)) (by
        intro b hb
        match b with
        | ⟨0, _⟩ => rfl
        | ⟨1, _⟩ => rfl
        | ⟨2, _⟩ => exact absurd rfl hb) (by
        show e.val - 2048 + 2048 = e.val
        omega)

end Cert.ReferenceIdeal.RMix

end
-- ==== Proof.ROut.lean ====
/-
  The reference's output entries read at an index: tanh of the combined row against W_out's row.
-/
import proofs.«166487_j65060164600030_1_alg».proof.Proof.RefStages
import proofs.«166487_j65060164600030_1_alg».proof.Proof.Spec
import Idealize.ShloMosaic.Lib.ValueIdx
import Idealize.ShloMosaic.Lib.Pipeline.Value
import Idealize.ShloMosaic.PureOps.Ideal.Laws

noncomputable section

namespace Cert.ReferenceIdeal.ROut

open Idealize.ShloMosaic Idealize.SL.Sem Idealize.ShloMosaic.ValueIdx
open Cert.ReferenceIdeal Cert.ReferenceIdeal.Facts₀ Cert.ReferenceIdeal.Stages

variable [Facts₀]

/-- The output contraction's dimension numbers: the combined rows' last axis against W_out's last axis. -/
private abbrev D := dot_S128x16x4096_S1024x4096_S128x16x1024_2_1_01_0_n_n

/-- One axis is contracted. -/
private theorem hrD : D.contr.rank = 1 := rfl
/-- Its extent is 4096. -/
private theorem hsD : D.contr.size ⟨0, by rw [hrD]; exact Nat.one_pos⟩ = 4096 := rfl

/-- The left operand's index keeps the output's batch coordinate. -/
private theorem lhs_0 (j : S128x16x1024.Idx) (k : D.contr.Idx) : (D.lhsIdx j k 0 : ℕ) = j 0 := by
  simp [DotDims.lhsIdx, D, dot_S128x16x4096_S1024x4096_S128x16x1024_2_1_01_0_n_n]; rfl
/-- The left operand's index keeps the output's row coordinate. -/
private theorem lhs_1 (j : S128x16x1024.Idx) (k : D.contr.Idx) : (D.lhsIdx j k 1 : ℕ) = j 1 := by
  simp [DotDims.lhsIdx, D, dot_S128x16x4096_S1024x4096_S128x16x1024_2_1_01_0_n_n]; rfl
/-- The left operand's last coordinate is the contraction's. -/
private theorem lhs_2 (j : S128x16x1024.Idx) (k : D.contr.Idx) :
    (D.lhsIdx j k 2 : ℕ) = k ⟨0, by rw [hrD]; exact Nat.one_pos⟩ := by
  simp [DotDims.lhsIdx, D, dot_S128x16x4096_S1024x4096_S128x16x1024_2_1_01_0_n_n]; rfl
/-- The right operand's first coordinate is the output's channel coordinate. -/
private theorem rhs_0 (j : S128x16x1024.Idx) (k : D.contr.Idx) : (D.rhsIdx j k 0 : ℕ) = j 2 := by
  simp [DotDims.rhsIdx, D, dot_S128x16x4096_S1024x4096_S128x16x1024_2_1_01_0_n_n]; rfl
/-- The right operand's last coordinate is the contraction's. -/
private theorem rhs_1 (j : S128x16x1024.Idx) (k : D.contr.Idx) :
    (D.rhsIdx j k 1 : ℕ) = k ⟨0, by rw [hrD]; exact Nat.one_pos⟩ := by
  simp [DotDims.rhsIdx, D, dot_S128x16x4096_S1024x4096_S128x16x1024_2_1_01_0_n_n]; rfl

/-- The output entry at (n, r, o): tanh(Σ_e combined[n, r, e] · W_out[o, e]). -/
theorem outOf_apply (comb : C Ideal S128x16x4096 .f32) (a4 : C Ideal S1024x4096 .f32) (n : Fin 128) (r : Fin 16) (o : Fin 1024) :
    outOf comb a4 (ix3 n r o) = Ideal.tanh (∑ e : Fin 4096, comb (ix3 n r e) * a4 (ix2 o e)) := by
  unfold outOf
  simp only [Host.tanh, Host.dotGeneral]
  -- the host's tanh at the ideal values is tanh on the extended reals
  refine (Ideal.hostUnary_tanh_def _).trans ?_
  refine congrArg Ideal.tanh ?_
  -- the contraction at (n, r, o) is the sum over its one contracted axis, re-indexed by that axis's coordinate
  refine (Ideal.dotGeneral_apply D none .single comb a4 (ix3 n r o)).trans ?_
  rw [← Equiv.sum_comp (contrEquiv1 D 4096 hrD hsD).symm]
  refine Finset.sum_congr rfl fun e _ => ?_
  -- the operands' indices, coordinate by coordinate
  have hl : D.lhsIdx (ix3 n r o) ((contrEquiv1 D 4096 hrD hsD).symm e) = ix3 n r e := by
    funext a
    match a with
    | ⟨0, _⟩ => exact Fin.ext (lhs_0 _ _)
    | ⟨1, _⟩ => exact Fin.ext (lhs_1 _ _)
    | ⟨2, _⟩ => exact Fin.ext ((lhs_2 _ _).trans (contrEquiv1_symm_val D 4096 hrD hsD e))
  have hrr : D.rhsIdx (ix3 n r o) ((contrEquiv1 D 4096 hrD hsD).symm e) = ix2 o e := by
    funext a
    match a with
    | ⟨0, _⟩ => exact Fin.ext (rhs_0 _ _)
    | ⟨1, _⟩ => exact Fin.ext ((rhs_1 _ _).trans (contrEquiv1_symm_val D 4096 hrD hsD e))
  rw [hl, hrr]

end Cert.ReferenceIdeal.ROut

end
-- ==== Proof.RUp.lean ====
/-
  The reference's tail read at an index: the pixel-to-row index vector is i ↦ i / 4 (computed: it has no
  input), so the two gathers show at pixel (h, w) of channel o the output entry of query row
  (h / 4) · 4 + w / 4; and the concatenation puts the input feature map on the first 1024 channels.
-/
import proofs.«166487_j65060164600030_1_alg».proof.Proof.RefStages
import proofs.«166487_j65060164600030_1_alg».proof.Proof.Spec
import Idealize.ShloMosaic.Lib.ValueIdx
import Idealize.ShloMosaic.Lib.Pipeline.Value
import Idealize.ShloMosaic.PureOps.Ideal.Laws

noncomputable section

namespace Cert.ReferenceIdeal.RUp

open Idealize.ShloMosaic Idealize.SL.Sem Idealize.ShloMosaic.ValueIdx
open Cert.ReferenceIdeal Cert.ReferenceIdeal.Facts₀ Cert.ReferenceIdeal.Stages

variable [Facts₀]

/-- The sign word of a 32-bit integer: 0, −1 or 1. -/
def sgn (v : BitVec 32) : BitVec 32 := if v = 0 then 0 else if v.msb then -1 else 1

/-- The floored quotient of two words as the program spells it: the truncated quotient, less one where the signs
    differ and the remainder is not zero. -/
def fdivWord (x y : BitVec 32) : BitVec 32 :=
  Scalar.select
    (IntOp.andi (IntOp.cmpi .ne (sgn x) (sgn y)) (IntOp.cmpi .ne (IntOp.remsi .host x y) 0#32))
    (IntOp.subi (IntOp.divsi .host x y) 1#32)
    (IntOp.divsi .host x y)

/-- The index word of pixel word a: ⌊4·a / 16⌋, a negative one wrapped by 4. -/
def idxWord (a : BitVec 32) : BitVec 32 :=
  Scalar.select (IntOp.cmpi .slt (fdivWord (IntOp.muli a 4#32) 16#32) 0#32)
    (IntOp.addi (fdivWord (IntOp.muli a 4#32) 16#32) 4#32)
    (fdivWord (IntOp.muli a 4#32) 16#32)

/-- The index vector at pixel i is the index word of i: every operation of the vector acts element by element. -/
theorem rowIdx_eq (i : Fin 16) : (rowIdx (F := Ideal)) (ix1 i) = idxWord (BitVec.ofNat 32 i.val) := rfl

/-- The index word at each of the 16 pixels, computed: i / 4. -/
theorem idxWord_val : ∀ i : Fin 16, idxWord (BitVec.ofNat 32 i.val) = BitVec.ofNat 32 (i.val / 4) := by decide

/-- A word i / 4 read signed and clamped into 0..3 is i / 4. -/
theorem clamp_val : ∀ i : Fin 16, min (BitVec.ofNat 32 (i.val / 4)).toInt.toNat 3 = i.val / 4 := by decide

section Gather
variable {s si t : Shape} (d : GatherDims s si t)

/-- On an operand axis that the start index map does not name and that is neither collapsed nor batching, a gather's
    operand index is the result's coordinate on the offset axis in that axis's position among the kept ones. -/
theorem operandIdx_offset {w : Nat} (j : t.Idx) (idx : IVec si w) (a : Fin s.rank) (k : Nat)
    (hk : k < d.offsetDims.length) (hm : a ∉ d.startIndexMap) (hb : a ∉ d.operandBatchingDims)
    (ha : a ∈ d.sKept) (hidx : d.sKept.idxOf a = k) :
    (d.operandIdx j idx a).val = (j (d.offsetDims[k])).val := by
  subst hidx
  show d.start j idx a + d.batchCoord j a + d.offCoord j a = _
  rw [d.batchCoord_eq_zero j a hb]
  unfold GatherDims.start GatherDims.offCoord
  rw [dif_neg hm, dif_pos ha, Nat.add_zero, Nat.zero_add]

/-- On a collapsed operand axis that the start index map names, a gather's operand index is the start index's
    component for that axis, read signed and clamped into the axis. -/
theorem operandIdx_collapsed {w : Nat} (j : t.Idx) (idx : IVec si w) (a : Fin s.rank)
    (hm : a ∈ d.startIndexMap) (hc : a ∈ d.collapsedSliceDims) (hb : a ∉ d.operandBatchingDims) (q : si.Idx)
    (hq : d.siIdx j ⟨d.startIndexMap.idxOf a, List.idxOf_lt_length_iff.2 hm⟩ = q) :
    (d.operandIdx j idx a).val = min (idx q).toInt.toNat (s.size a - 1) := by
  subst hq
  show d.start j idx a + d.batchCoord j a + d.offCoord j a = _
  rw [d.batchCoord_eq_zero j a hb, d.offCoord_eq_zero j a (fun h => ((d.mem_sKept a).1 h).1 hc)]
  unfold GatherDims.start
  rw [dif_pos hm, d.slice_collapsed a hc]
  rfl

end Gather

/-- The first gather read at (n, o, h, w): the operand's row at the start index of pixel row h, read signed and
    clamped into 0..3; the other coordinates are the result's own. -/
theorem gatherRows_apply {α : Type} (x : S128x1024x4x4.Idx → α) (idx : IVec S16x1 32)
    (n : Fin 128) (o : Fin 1024) (h : Fin 16) (w : Fin 4) :
    Host.gather gather_S128x1024x4x4_S16x1_S128x1024x16x4_013_2_n_n_2_1_128102414 x idx (ix4 n o h w)
      = x (ix4 n o ⟨min (idx (ix2 h (0 : Fin 1))).toInt.toNat 3, by omega⟩ w) := by
  unfold Host.gather
  congr 1
  funext a
  apply Fin.ext
  match a with
  | ⟨0, _⟩ =>
    refine (operandIdx_offset gather_S128x1024x4x4_S16x1_S128x1024x16x4_013_2_n_n_2_1_128102414
      (ix4 n o h w) idx (0 : Fin 4) 0 (show (0 : Nat) < 3 by decide)
      (show (0 : Fin 4) ∉ [(2 : Fin 4)] by decide) List.not_mem_nil
      (show (0 : Fin 4) ∈ S128x1024x4x4.kept ([(2 : Fin 4)] ++ []) by decide)
      (show List.idxOf (0 : Fin 4) (S128x1024x4x4.kept ([(2 : Fin 4)] ++ [])) = 0 by decide)).trans ?_
    rfl
  | ⟨1, _⟩ =>
    refine (operandIdx_offset gather_S128x1024x4x4_S16x1_S128x1024x16x4_013_2_n_n_2_1_128102414
      (ix4 n o h w) idx (1 : Fin 4) 1 (show (1 : Nat) < 3 by decide)
      (show (1 : Fin 4) ∉ [(2 : Fin 4)] by decide) List.not_mem_nil
      (show (1 : Fin 4) ∈ S128x1024x4x4.kept ([(2 : Fin 4)] ++ []) by decide)
      (show List.idxOf (1 : Fin 4) (S128x1024x4x4.kept ([(2 : Fin 4)] ++ [])) = 1 by decide)).trans ?_
    rfl
  | ⟨3, _⟩ =>
    refine (operandIdx_offset gather_S128x1024x4x4_S16x1_S128x1024x16x4_013_2_n_n_2_1_128102414
      (ix4 n o h w) idx (3 : Fin 4) 2 (show (2 : Nat) < 3 by decide)
      (show (3 : Fin 4) ∉ [(2 : Fin 4)] by decide) List.not_mem_nil
      (show (3 : Fin 4) ∈ S128x1024x4x4.kept ([(2 : Fin 4)] ++ []) by decide)
      (show List.idxOf (3 : Fin 4) (S128x1024x4x4.kept ([(2 : Fin 4)] ++ [])) = 2 by decide)).trans ?_
    rfl
  | ⟨2, _⟩ =>
    refine (operandIdx_collapsed gather_S128x1024x4x4_S16x1_S128x1024x16x4_013_2_n_n_2_1_128102414
      (ix4 n o h w) idx (2 : Fin 4)
      (show (2 : Fin 4) ∈ [(2 : Fin 4)] by decide) (show (2 : Fin 4) ∈ [(2 : Fin 4)] by decide) List.not_mem_nil
      (ix2 h (0 : Fin 1)) ?_).trans ?_
    · funext b; refine Fin.ext ?_
      match b with
      | ⟨0, _⟩ => rfl
      | ⟨1, _⟩ => rfl
    · rfl

/-- The second gather read at (n, o, h, w): the operand's column at the start index of pixel column w, read signed
    and clamped into 0..3; the other coordinates are the result's own. -/
theorem gatherCols_apply {α : Type} (x : S128x1024x16x4.Idx → α) (idx : IVec S16x1 32)
    (n : Fin 128) (o : Fin 1024) (h w : Fin 16) :
    Host.gather gather_S128x1024x16x4_S16x1_S128x1024x16x16_012_3_n_n_3_1_1281024161 x idx (ix4 n o h w)
      = x (ix4 n o h ⟨min (idx (ix2 w (0 : Fin 1))).toInt.toNat 3, by omega⟩) := by
  unfold Host.gather
  congr 1
  funext a
  apply Fin.ext
  match a with
  | ⟨0, _⟩ =>
    refine (operandIdx_offset gather_S128x1024x16x4_S16x1_S128x1024x16x16_012_3_n_n_3_1_1281024161
      (ix4 n o h w) idx (0 : Fin 4) 0 (show (0 : Nat) < 3 by decide)
      (show (0 : Fin 4) ∉ [(3 : Fin 4)] by decide) List.not_mem_nil
      (show (0 : Fin 4) ∈ S128x1024x16x4.kept ([(3 : Fin 4)] ++ []) by decide)
      (show List.idxOf (0 : Fin 4) (S128x1024x16x4.kept ([(3 : Fin 4)] ++ [])) = 0 by decide)).trans ?_
    rfl
  | ⟨1, _⟩ =>
    refine (operandIdx_offset gather_S128x1024x16x4_S16x1_S128x1024x16x16_012_3_n_n_3_1_1281024161
      (ix4 n o h w) idx (1 : Fin 4) 1 (show (1 : Nat) < 3 by decide)
      (show (1 : Fin 4) ∉ [(3 : Fin 4)] by decide) List.not_mem_nil
      (show (1 : Fin 4) ∈ S128x1024x16x4.kept ([(3 : Fin 4)] ++ []) by decide)
      (show List.idxOf (1 : Fin 4) (S128x1024x16x4.kept ([(3 : Fin 4)] ++ [])) = 1 by decide)).trans ?_
    rfl
  | ⟨2, _⟩ =>
    refine (operandIdx_offset gather_S128x1024x16x4_S16x1_S128x1024x16x16_012_3_n_n_3_1_1281024161
      (ix4 n o h w) idx (2 : Fin 4) 2 (show (2 : Nat) < 3 by decide)
      (show (2 : Fin 4) ∉ [(3 : Fin 4)] by decide) List.not_mem_nil
      (show (2 : Fin 4) ∈ S128x1024x16x4.kept ([(3 : Fin 4)] ++ []) by decide)
      (show List.idxOf (2 : Fin 4) (S128x1024x16x4.kept ([(3 : Fin 4)] ++ [])) = 2 by decide)).trans ?_
    rfl
  | ⟨3, _⟩ =>
    refine (operandIdx_collapsed gather_S128x1024x16x4_S16x1_S128x1024x16x16_012_3_n_n_3_1_1281024161
      (ix4 n o h w) idx (3 : Fin 4)
      (show (3 : Fin 4) ∈ [(3 : Fin 4)] by decide) (show (3 : Fin 4) ∈ [(3 : Fin 4)] by decide) List.not_mem_nil
      (ix2 w (0 : Fin 1)) ?_).trans ?_
    · funext b; refine Fin.ext ?_
      match b with
      | ⟨0, _⟩ => rfl
      | ⟨1, _⟩ => rfl
    · rfl

/-- The index vector: pixel i reads row i / 4. -/
theorem rowIdx_apply (i : Fin 16) : (rowIdx (F := Ideal)) (ix1 i) = BitVec.ofNat 32 (i.val / 4) :=
  (rowIdx_eq i).trans (idxWord_val i)

/-- The one-column index table at row p is the index vector at p. -/
theorem rowIdxCol_apply (p : Fin 16) : (rowIdxCol (F := Ideal)) (ix2 p (0 : Fin 1)) = BitVec.ofNat 32 (p.val / 4) := by
  unfold rowIdxCol
  refine (broadcastInDim_apply _ _ _ (ix2 p (0 : Fin 1)) (ix1 p) ?_).trans (rowIdx_apply p)
  intro a
  match a with
  | ⟨0, _⟩ => rfl

/-- The 4 × 4 map at (n, o, a, b): the output entry of query row 4·a + b. -/
theorem amapOf_apply (out : C Ideal S128x16x1024 .f32) (n : Fin 128) (o : Fin 1024) (a b : Fin 4) :
    amapOf out (ix4 n o a b) = out (ix3 n (⟨a.val * 4 + b.val, by omega⟩ : Fin 16) o) := by
  unfold amapOf
  refine (shapeCast_apply _ _ (ix4 n o a b) (ix3 n o (⟨a.val * 4 + b.val, by omega⟩ : Fin 16)) ?_).trans ?_
  · rw [Shape.rowMajor_val_three, Shape.rowMajor_val_four]
    show (n.val * 1024 + o.val) * 16 + (a.val * 4 + b.val) = ((n.val * 1024 + o.val) * 4 + a.val) * 4 + b.val
    omega
  · refine transpose_apply _ out _ (ix3 n o (⟨a.val * 4 + b.val, by omega⟩ : Fin 16))
      (ix3 n (⟨a.val * 4 + b.val, by omega⟩ : Fin 16) o) ?_
    intro c
    match c with
    | ⟨0, _⟩ => rfl
    | ⟨1, _⟩ => rfl
    | ⟨2, _⟩ => rfl

/-- The two gathers by a one-column table that holds p / 4 at row p: the result at (n, o, h, w) is the operand at
    (n, o, h / 4, w / 4). -/
theorem gathers_apply {α : Type} (x : S128x1024x4x4.Idx → α) (idx : IVec S16x1 32)
    (hidx : ∀ p : Fin 16, idx (ix2 p (0 : Fin 1)) = BitVec.ofNat 32 (p.val / 4))
    (n : Fin 128) (o : Fin 1024) (h w : Fin 16) :
    Host.gather gather_S128x1024x16x4_S16x1_S128x1024x16x16_012_3_n_n_3_1_1281024161
        (Host.gather gather_S128x1024x4x4_S16x1_S128x1024x16x4_013_2_n_n_2_1_128102414 x idx) idx (ix4 n o h w)
      = x (ix4 n o (⟨h.val / 4, by have := h.isLt; omega⟩ : Fin 4) (⟨w.val / 4, by have := w.isLt; omega⟩ : Fin 4)) := by
  have hh : (⟨min (idx (ix2 h (0 : Fin 1))).toInt.toNat 3, by omega⟩ : Fin 4)
      = ⟨h.val / 4, by have := h.isLt; omega⟩ :=
    Fin.ext (by show min (idx (ix2 h (0 : Fin 1))).toInt.toNat 3 = h.val / 4; rw [hidx]; exact clamp_val h)
  have hw : (⟨min (idx (ix2 w (0 : Fin 1))).toInt.toNat 3, by omega⟩ : Fin 4)
      = ⟨w.val / 4, by have := w.isLt; omega⟩ :=
    Fin.ext (by show min (idx (ix2 w (0 : Fin 1))).toInt.toNat 3 = w.val / 4; rw [hidx]; exact clamp_val w)
  refine (gatherCols_apply _ idx n o h w).trans ?_
  rw [hw]
  refine (gatherRows_apply x idx n o h _).trans ?_
  rw [hh]

/-- The spread map at (n, o, h, w): the output entry of the query row that pixel shows. -/
theorem upOf_apply (out : C Ideal S128x16x1024 .f32) (n : Fin 128) (o : Fin 1024) (h w : Fin 16) :
    upOf (amapOf out) (ix4 n o h w) = out (ix3 n (Cert.Spec.pixelRow h w) o) := by
  unfold upOf
  exact (gathers_apply _ _ rowIdxCol_apply n o h w).trans (amapOf_apply out n o _ _)

/-- The result array at (n, ch, h, w): the input feature map below channel 1024, the spread map from 1024 on. -/
theorem catOf_apply (a0 up : C Ideal S128x1024x16x16 .f32) (n : Fin 128) (ch : Fin 2048) (h w : Fin 16) :
    catOf a0 up (ix4 n ch h w)
      = if hc : ch.val < 1024 then a0 (ix4 n (⟨ch.val, hc⟩ : Fin 1024) h w)
        else up (ix4 n (⟨ch.val - 1024, by have := ch.isLt; omega⟩ : Fin 1024) h w) := by
  unfold catOf
  by_cases hc : ch.val < 1024
  · rw [dif_pos hc]
    refine concatenate_pair_apply_left (1 : Fin 4) a0 up _ (ix4 n ch h w) rfl (ix4 n ⟨ch.val, hc⟩ h w) ?_
    intro b
    match b with
    | ⟨0, _⟩ => rfl
    | ⟨1, _⟩ => rfl
    | ⟨2, _⟩ => rfl
    | ⟨3, _⟩ => rfl
  · rw [dif_neg hc]
    refine concatenate_pair_apply_right (1 : Fin 4) a0 up _ (ix4 n ch h w) rfl rfl
      (ix4 n ⟨ch.val - 1024, by have := ch.isLt; omega⟩ h w) ?_ ?_
    · intro b hb
      match b, hb with
      | ⟨0, _⟩, _ => rfl
      | ⟨1, _⟩, hb => exact absurd rfl hb
      | ⟨2, _⟩, _ => rfl
      | ⟨3, _⟩, _ => rfl
    · show ch.val - 1024 + 1024 = ch.val
      omega

end Cert.ReferenceIdeal.RUp

end
-- ==== Proof.RValue.lean ====
/-
  The reference's result as the same function of its arguments: the composition of its stages, read at an index
  stage by stage from the outside in — the concatenation, the two gathers over the 4 × 4 map, tanh of the output
  contraction, the combined row (the mix of the softmaxed scores, then the projected query), the scores and the
  projected query — is the specification's `result` of the five argument arrays.
-/
import proofs.«166487_j65060164600030_1_alg».proof.Proof.RQ
import proofs.«166487_j65060164600030_1_alg».proof.Proof.RSoftmax
import proofs.«166487_j65060164600030_1_alg».proof.Proof.RMix
import proofs.«166487_j65060164600030_1_alg».proof.Proof.ROut
import proofs.«166487_j65060164600030_1_alg».proof.Proof.RUp

noncomputable section

namespace Cert.ReferenceIdeal.RValue

open Idealize.ShloMosaic Idealize.SL.Sem Idealize.ShloMosaic.ValueIdx
open Cert.ReferenceIdeal Cert.ReferenceIdeal.Facts₀ Cert.ReferenceIdeal.Stages

variable [Facts₀]

variable (a0 : C Ideal S128x1024x16x16 .f32) (a1 : C Ideal S128x2048x512 .f32) (a2 : C Ideal S1x16x2048 .f32)
  (a3 : C Ideal S2048x2048 .f32) (a4 : C Ideal S1024x4096 .f32)

/-- The arguments as functions of coordinates. -/
def catF (n : Fin 128) (ch : Fin 1024) (h w : Fin 16) : EReal := a0 (ix4 n ch h w)
def ctxF (n : Fin 128) (d : Fin 2048) (l : Fin 512) : EReal := a1 (ix3 n d l)
def queryF (r : Fin 16) (d : Fin 2048) : EReal := a2 (ix3 (0 : Fin 1) r d)
def winF (e d : Fin 2048) : EReal := a3 (ix2 e d)
def woutF (o : Fin 1024) (e : Fin 4096) : EReal := a4 (ix2 o e)

/-- The projected query at (n, r, d). -/
theorem q_apply (n : Fin 128) (r : Fin 16) (d : Fin 2048) :
    qOf a2 a3 (ix3 n r d) = Cert.Spec.qproj (queryF a2) (winF a3) r d := by
  rw [RQ.qOf_apply]; rfl

/-- The scores' row (n, r). -/
theorem scores_row (n : Fin 128) (r : Fin 16) :
    (fun l => scoresOf (qOf a2 a3) (ctxT a1) (ix3 n r l))
      = Cert.Spec.scores (Cert.Spec.qproj (queryF a2) (winF a3)) (ctxF a1 n) r := by
  funext l
  rw [RQ.scoresOf_apply]
  unfold Cert.Spec.scores
  exact Finset.sum_congr rfl fun d _ => by rw [q_apply]; rfl

/-- The combined row at (n, r, e). -/
theorem comb_apply (n : Fin 128) (r : Fin 16) (e : Fin 4096) :
    combOf (mixOf (softmaxOf (scoresOf (qOf a2 a3) (ctxT a1))) (ctxT a1)) (qOf a2 a3) (ix3 n r e)
      = Cert.Spec.combined (Cert.Spec.qproj (queryF a2) (winF a3)) (ctxF a1 n) r e := by
  rw [RMix.combOf_apply]
  unfold Cert.Spec.combined
  by_cases he : e.val < 2048
  · rw [dif_pos he, dif_pos he, RMix.mixOf_apply]
    unfold Cert.Spec.mix
    refine Finset.sum_congr rfl fun l _ => ?_
    rw [RSoftmax.softmaxOf_apply, scores_row]
    rfl
  · rw [dif_neg he, dif_neg he, q_apply]

/-- THE REFERENCE'S RESULT at (n, ch, h, w): the specification's result of the arguments. -/
theorem refVal_apply (n : Fin 128) (ch : Fin 2048) (h w : Fin 16) :
    refVal a0 a1 a2 a3 a4 (ix4 n ch h w)
      = Cert.Spec.result (catF a0) (ctxF a1) (queryF a2) (winF a3) (woutF a4) n ch h w := by
  unfold refVal
  rw [RUp.catOf_apply]
  unfold Cert.Spec.result
  by_cases hc : ch.val < 1024
  · rw [dif_pos hc, dif_pos hc]; rfl
  · rw [dif_neg hc, dif_neg hc, RUp.upOf_apply, ROut.outOf_apply]
    unfold Cert.Spec.proj
    refine congrArg Ideal.tanh (Finset.sum_congr rfl fun e _ => ?_)
    rw [comb_apply]
    rfl

end Cert.ReferenceIdeal.RValue

end
-- ==== Proof.lean ====
/-
  The certificate of the cross-attention block: a Pallas program of three pipelines (the query projection, the
  attention over the batch in blocks of four, the output projection under tanh in blocks of 512 rows) with a
  reshape between the last two and a layout tail after them, against the jnp reference.

  At the ideal values both programs compute one function of the five arguments (Proof/Spec.lean, `result`): the
  input feature map on the first 1024 channels; on channel 1024 + o at pixel (h, w) the value
  tanh(Σ_e combined[n, r, e] · W_out[o, e]) for the query row r = (h / 4) · 4 + w / 4, where combined[n, r, ·] is
  the mix of batch element n's softmaxed scores followed by the projected query's row r. The changes of float
  format in the kernel are the identity at the ideal values; the kernel's blocked contractions and the reference's
  whole ones are the same sums; both softmaxes take the row maximum from −∞ and divide by the row sum; the kernel's
  repeat-by-broadcast and the reference's gather by ⌊4 i / 16⌋ show the same query row at each pixel.

  The kernel side: the run of @main with the result buffer named (Proof/KRun.lean), the buffer contents at the last
  boundary read back through the three pipelines and the host operations (Proof/KValue.lean over Proof/K0.lean,
  K1.lean with K1Pay.lean, K2.lean, KTail.lean). The reference side: its run read back as the composition of its
  stages (Proof/RRun.lean over Proof/RefStages.lean) and the stages read at an index (Proof/RValue.lean over
  RQ.lean, RSoftmax.lean, RMix.lean, ROut.lean, RUp.lean). No law used needs a finite input: the precondition is
  never opened. The ideal pass rewrote nothing, so `preserves` is `True`.
-/
import proofs.«166487_j65060164600030_1_alg».proof.Defs
import proofs.«166487_j65060164600030_1_alg».proof.Proof.Gen.Kernel
import proofs.«166487_j65060164600030_1_alg».proof.Proof.Gen.Kernel.Frame
import proofs.«166487_j65060164600030_1_alg».proof.Proof.Gen.KernelIdeal
import proofs.«166487_j65060164600030_1_alg».proof.Proof.Gen.KernelIdeal.Frame
import proofs.«166487_j65060164600030_1_alg».proof.Proof.Gen.ReferenceIdeal
import proofs.«166487_j65060164600030_1_alg».proof.Proof.Gen.Pre_finite_inputs
import proofs.«166487_j65060164600030_1_alg».proof.Proof.KRun
import proofs.«166487_j65060164600030_1_alg».proof.Proof.KValue
import proofs.«166487_j65060164600030_1_alg».proof.Proof.RRun
import proofs.«166487_j65060164600030_1_alg».proof.Proof.RValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's stages of the kernel's launch arguments are the kernel's last-boundary contents of the result
    buffer: index by index both are the specification's result. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Stages.refVal (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Gen.W5 m ρ c (Proc.devRef .tc Cert.KernelIdeal.main_v11) := by
  funext i
  obtain ⟨n, ch, h, w, rfl⟩ : ∃ (n : Fin 128) (ch : Fin 2048) (h w : Fin 16), i = ix4 n ch h w :=
    ⟨i 0, i 1, i 2, i 3, eq_ix4 i⟩
  refine (Cert.ReferenceIdeal.RValue.refVal_apply _ _ _ _ _ n ch h w).trans ?_
  refine Eq.trans ?_ (Cert.KernelIdeal.KValue.result_apply m ρ c n ch h w).symm
  rfl

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both idealized programs run, the kernel's result buffer ending at its last-boundary contents and the
    reference's at its stages' composition of arguments that agree with the kernel's: one function. -/
theorem algebraic : Cert.algebraic_KernelIdeal_ReferenceIdeal := by
  intro m ρ m' ρ' _ hagree
  refine ⟨fun c => Cert.KernelIdeal.Gen.W5 m ρ c (Proc.devRef .tc Cert.KernelIdeal.main_v11),
    Cert.KernelIdeal.KRun.run_value (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  exact results_agree m ρ c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
